-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1x64 .f32) (main_arg10 : FVec F S1 .f32) (main_v33 : IVec S_ 1) : IVec S_ 1 :=
  let main_v34 : FVec F S1x64 .f32 := Host.absf main_arg9
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S1x64 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S1x64 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S100000x1 : Shape := ⟨2, ![100000, 1]⟩
abbrev S1x1 : Shape := ⟨2, ![1, 1]⟩
abbrev S512x1 : Shape := ⟨2, ![512, 1]⟩
abbrev S1000x1 : Shape := ⟨2, ![1000, 1]⟩
abbrev S1000x64 : Shape := ⟨2, ![1000, 64]⟩
abbrev S64x512 : Shape := ⟨2, ![64, 512]⟩
abbrev S1x512 : Shape := ⟨2, ![1, 512]⟩
abbrev S1000x512 : Shape := ⟨2, ![1000, 512]⟩

abbrev nBuf : Space → Nat
  | .hbm => 116
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x64, .f32⟩
  | .hbm, ⟨103, _⟩ => ⟨S1700000x1, .f32⟩
  | .hbm, ⟨104, _⟩ => ⟨S1700000x64, .f32⟩
  | .hbm, ⟨105, _⟩ => ⟨S1700000x64, .f32⟩
  | .hbm, ⟨106, _⟩ => ⟨S_, .f32⟩
  | .hbm, ⟨107, _⟩ => ⟨S100000x64, .f32⟩
  | .hbm, ⟨108, _⟩ => ⟨S1700000x1, .i32⟩
  | .hbm, ⟨109, _⟩ => ⟨S100000x64, .f32⟩
  | .hbm, ⟨110, _⟩ => ⟨S1x64, .f32⟩
  | .hbm, ⟨111, _⟩ => ⟨S100000x64, .f32⟩
  | .hbm, ⟨112, _⟩ => ⟨S100000x64, .f32⟩
  | .hbm, ⟨113, _⟩ => ⟨S100000x1, .i32⟩
  | .hbm, ⟨114, _⟩ => ⟨S1x1, .f32⟩
  | .hbm, ⟨115, _⟩ => ⟨S512x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S1000x1, .i32⟩
  | .local _ .vmem, ⟨16, _⟩ => ⟨S1000x1, .i32⟩
  | .local _ .vmem, ⟨17, _⟩ => ⟨S1000x64, .f32⟩
  | .local _ .vmem, ⟨18, _⟩ => ⟨S1000x64, .f32⟩
  | .local _ .vmem, ⟨19, _⟩ => ⟨S1x64, .f32⟩
  | .local _ .vmem, ⟨20, _⟩ => ⟨S1x1, .f32⟩
  | .local _ .vmem, ⟨21, _⟩ => ⟨S512x1, .f32⟩
  | .local _ .vmem, ⟨22, _⟩ => ⟨S64x512, .f32⟩
  | .local _ .vmem, ⟨23, _⟩ => ⟨S1x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_scratch0 : Ref sig .tc := ⟨.vmem, 22, rfl⟩
abbrev cc3_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem4_0 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def k3_cond2 (i : grid3.Coords) : BitVec 1 :=
  let arg0 : BitVec 32 := BitVec.ofNat 32 (i 0).val
  let c99_i32 : BitVec 32 := 99#32
  let v27 : BitVec 1 := Scalar.cmpi .eq arg0 c99_i32
  let v28 : BitVec 32 := Scalar.extui v27
  let c0_i32_14 : BitVec 32 := 0#32
  let v29 : BitVec 1 := Scalar.cmpi .ne v28 c0_i32_14
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  shapeCasts_S1_S1x1 : S1.ShapeCasts S1x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x512_d1_w32 : S1000x512.Iotas .tc 32 [1]
  broadcasts_S1000x1_S1000x512 : S1000x1.Broadcasts S1000x512
  natLt_1_32 : 1 < 32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  broadcasts_S1x512_S64x512 : S1x512.Broadcasts S64x512
  inb_S1x64_S1x64_0_0 : ∀ a, (![0, 0] : Fin 2 → Nat) a + S1x64.size a ≤ S1x64.size a
  h_S1x64 : 0 < S1x64.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x512 : S1x1.Broadcasts S1x512
  transposes_S1x512_p1_0_S512x1 : S1x512.Transposes [1, 0] S512x1
  inb_S512x1_S512x1_0_0 : ∀ a, (![0, 0] : Fin 2 → Nat) a + S512x1.size a ≤ S512x1.size a
  h_S512x1 : 0 < S512x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S1000x64_S1000x512_S64x512_0_0_1_1_n_n_wf : DotDims.WF S1000x64 S1000x512 S64x512 [0] [0] [1] [1] [] []
  dot_S1000x1_S1000x512_S1x512_0_0_1_1_n_n_wf : DotDims.WF S1000x1 S1000x512 S1x512 [0] [0] [1] [1] [] []
  dot_S1x64_S64x512_S1x512_1_0_0_1_n_n_wf : DotDims.WF S1x64 S64x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x1.size a ≤ S100000x1.size a
  hwx3_0 : ∀ i : grid3.Coords, EltTy.bits .i32 = 32 ∨ (Rect.block (s := S100000x1) S1000x1.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S100000x64.size a
  hwx3_1 : ∀ i : grid3.Coords, EltTy.bits .f32 = 32 ∨ (Rect.block (s := S100000x64) S1000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S512x1.size a
  hwx3_4 : ∀ i : grid3.Coords, EltTy.bits .f32 = 32 ∨ (Rect.block (s := S512x1) S512x1.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1000x64_S1000x512_S64x512_0_0_1_1_n_n : DotDims S1000x64 S1000x512 S64x512 where
  lhsContracting := [0]
  rhsContracting := [0]
  lhsNonContracting := [1]
  rhsNonContracting := [1]
  lhsBatch := []
  rhsBatch := []
  wf := dot_S1000x64_S1000x512_S64x512_0_0_1_1_n_n_wf
def dot_S1000x1_S1000x512_S1x512_0_0_1_1_n_n : DotDims S1000x1 S1000x512 S1x512 where
  lhsContracting := [0]
  rhsContracting := [0]
  lhsNonContracting := [1]
  rhsNonContracting := [1]
  lhsBatch := []
  rhsBatch := []
  wf := dot_S1000x1_S1000x512_S1x512_0_0_1_1_n_n_wf
def dot_S1x64_S64x512_S1x512_1_0_0_1_n_n : DotDims S1x64 S64x512 S1x512 where
  lhsContracting := [1]
  rhsContracting := [0]
  lhsNonContracting := [0]
  rhsNonContracting := [1]
  lhsBatch := []
  rhsBatch := []
  wf := dot_S1x64_S64x512_S1x512_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S1000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S1000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S512x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S64x1 : Shape := ⟨2, ![64, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S1x64, .f32⟩
  | 10 => ⟨S1, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S100000x64, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x64, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x64, .f32⟩
  | 80 => ⟨S1700000x1, .f32⟩
  | 81 => ⟨S1700000x64, .f32⟩
  | 82 => ⟨S1700000x64, .f32⟩
  | 83 => ⟨S_, .f32⟩
  | 84 => ⟨S100000x64, .f32⟩
  | 85 => ⟨S1700000x1, .i32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S100000x64, .f32⟩
  | 92 => ⟨S100000x64, .f32⟩
  | 93 => ⟨S100000x64, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x64, .f32⟩
  | 103 => ⟨S1700000x1, .f32⟩
  | 104 => ⟨S1700000x64, .f32⟩
  | 105 => ⟨S1700000x64, .f32⟩
  | 106 => ⟨S_, .f32⟩
  | 107 => ⟨S100000x64, .f32⟩
  | 108 => ⟨S1700000x1, .i32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S512x64, .f32⟩
  | 115 => ⟨S100000x1, .i32⟩
  | 116 => ⟨S512x64, .f32⟩
  | 117 => ⟨S_, .f32⟩
  | 118 => ⟨S100000, .f32⟩
  | 119 => ⟨S_, .f32⟩
  | 120 => ⟨S512, .f32⟩
  | 121 => ⟨S100000x1, .i32⟩
  | 122 => ⟨S512, .f32⟩
  | 123 => ⟨S_, .f32⟩
  | 124 => ⟨S512, .f32⟩
  | 125 => ⟨S512, .f32⟩
  | 126 => ⟨S512x1, .f32⟩
  | 127 => ⟨S512x64, .f32⟩
  | _ => ⟨S100000x128, .f32⟩

abbrev hbmTy0_1 (i : Nat) : BufTy := match i % 128 with
  | 0 => ⟨S512x64, .f32⟩
  | 1 => ⟨S64x1, .f32⟩
  | 2 => ⟨S512x1, .f32⟩
  | 3 => ⟨S1x1, .f32⟩
  | 4 => ⟨S512x1, .f32⟩
  | 5 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_cst : Ref sig .tc := ⟨.hbm, 90, rfl⟩
abbrev main_call1_v0 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_c_12 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_14 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_15 : Ref sig .tc := ⟨.hbm, 117, rfl⟩
abbrev main_v85 : Ref sig .tc := ⟨.hbm, 118, rfl⟩
abbrev main_cst_16 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  transposes_S1x64_S64x1_1_0 : S1x64.Transposes [1, 0] S64x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x1_S512x1_1_0_0_1_n_n_wf : DotDims.WF S512x64 S64x1 S512x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.KI.Mat0.lean ====
/-
  Region 0 of the idealized kernel program: one row-tiled matrix product. At every grid point the body reads a
  block of 5000 rows of the left operand and the whole right operand and stores their product (accumulated from a zero
  matrix) as the matching 5000 rows of the result. This module states, at any float instance and for any contents
  `V` of the buffers at the region's entry, what the result window's staging buffer holds after the body (`out0_2`), the
  body's triple, the pipeline's proof data (`dat0`) and the body obligation the launch theorem asks for.
-/
import proofs.«409805_j12120397709999_1_alg».proof.Proof.Gen.KernelIdeal.Launch
import proofs.«409805_j12120397709999_1_alg».proof.Proof.Gen.KernelIdeal.Skeleton
import proofs.«409805_j12120397709999_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the point's row block, whatever proof data has `V`'s array and leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole matrix at every point: it is fetched once and its block never
    moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S5000x128 := Rect.unit (s := S5000x128) ![0, 0] S5000x128.size inb_S5000x128_S5000x128_0_0
abbrev rw0 : Rect S128x64 := Rect.unit (s := S128x64) ![0, 0] S128x64.size inb_S128x64_S128x64_0_0
abbrev ro0 : Rect S5000x64 := Rect.unit (s := S5000x64) ![0, 0] S5000x64.size inb_S5000x64_S5000x64_0_0

/-- What the body leaves in the result window's staging buffer: its one store, the product of the two loaded blocks. -/
def out0_2 (x0 : Vec F S5000x128 .f32) (x1 : Vec F S128x64 .f32) : Vec F S5000x64 .f32 :=
  View.canon [⟨ro0, k0_pay1 (View.ld x0 rx0) (View.ld x1 rw0)⟩]

/-- The one store covers the whole buffer. -/
theorem cover0_2 (p0 : Vec F S5000x64 .f32) (y : S5000x64.Idx) :
    ∃ pc ∈ ([⟨ro0, p0⟩] : List (View.Piece (Elt F) S5000x64 .f32)), y ∈ pc.1.set :=
  View.cover_of_tiled [⟨ro0, p0⟩] S5000x64.size (by rfl) y

set_option maxHeartbeats 1000000 in
/-- The body on whole staging memrefs, the two inputs' at `x0`, `x1` and the result's at anything, runs to its return with
    the inputs' as they were and the result's at `out0_2 x0 x1`. -/
theorem sound_kernel0 (c : Dev nD) (E : Set ℕ) (i : grid0.Coords) (arg1 : Memref sig .tc .vmem S5000x128 .f32) (harg1 : arg1.IsWhole) (arg2 : Memref sig .tc .vmem S128x64 .f32) (harg2 : arg2.IsWhole)
    (arg3 : Memref sig .tc .vmem S5000x64 .f32) (harg3 : arg3.IsWhole)
    (x0 : Vec F S5000x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body each input's buffer at its
    block and the result's at the product of the two blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Pool.lean ====
/-
  Region 3 of the idealized kernel program: mean pooling over graph ids and the linear head, as one kernel over a grid
  of 100 points of 1000 rows each. Two scratch buffers are carried from point to point: the running per-graph sums of
  the rows (64 x 512) and the running per-graph row counts (1 x 512). The first point zeroes them before adding its
  block's contribution; every point adds its block's contribution; the last point divides the sums by the counts
  (at least one), applies the linear layer and stores the 512 results. This module states, at any float instance and
  for any contents `V` of the buffers at the region's entry, what the two scratch buffers hold after each point
  (`acc3`), what the last point stores (`out3_4`), the pipeline's proof data (`dat3`), the body obligation, and
  that the region's invariant starts from and ends in the launch's own.
-/
import proofs.«409805_j12120397709999_1_alg».proof.Proof.Gen.KernelIdeal.Launch
import proofs.«409805_j12120397709999_1_alg».proof.Proof.Gen.KernelIdeal.Skeleton
import proofs.«409805_j12120397709999_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-- Window `w`'s block at grid point `t`, read off its array as the region finds it. Windows: 0 the graph ids
    (1000 x 1 words), 1 the rows (1000 x 64), 2 the linear layer's weights (1 x 64, whole), 3 its bias (1 x 1, whole),
    4 the result (512 x 1, whole). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two carried scratch buffers after grid point `n`: the per-graph sums of rows and the per-graph row counts of
    blocks 0 … n. The first point starts from the zero matrices the body has just stored. -/
def acc3 (c : Dev nD) : (n : ℕ) → n < cfg3.N → Vec F S64x512 .f32 × Vec F S1x512 .f32
  | 0, hn => (k3_pay4 (iblk3 V c 0 ⟨0, hn⟩) (iblk3 V c 1 ⟨0, hn⟩) (k3_pay1 (F := F)),
              k3_pay5 (iblk3 V c 0 ⟨0, hn⟩) (k3_pay2 (F := F)))
  | n + 1, hn => (k3_pay4 (iblk3 V c 0 ⟨n + 1, hn⟩) (iblk3 V c 1 ⟨n + 1, hn⟩) (acc3 c n (Nat.lt_of_succ_lt hn)).1,
                  k3_pay5 (iblk3 V c 0 ⟨n + 1, hn⟩) (acc3 c n (Nat.lt_of_succ_lt hn)).2)

theorem acc3_zero (c : Dev nD) (hn : 0 < cfg3.N) :
    acc3 V c 0 hn = (k3_pay4 (iblk3 V c 0 ⟨0, hn⟩) (iblk3 V c 1 ⟨0, hn⟩) (k3_pay1 (F := F)),
              k3_pay5 (iblk3 V c 0 ⟨0, hn⟩) (k3_pay2 (F := F))) := rfl

theorem acc3_succ (c : Dev nD) (n : ℕ) (hn : n + 1 < cfg3.N) :
    acc3 V c (n + 1) hn = (k3_pay4 (iblk3 V c 0 ⟨n + 1, hn⟩) (iblk3 V c 1 ⟨n + 1, hn⟩) (acc3 V c n (Nat.lt_of_succ_lt hn)).1,
                  k3_pay5 (iblk3 V c 0 ⟨n + 1, hn⟩) (acc3 V c n (Nat.lt_of_succ_lt hn)).2) := rfl

/-- What the body stores into the result window's staging buffer at a point where it stores (the last): the finished
    sums over the finished counts, through the linear layer. -/
def out3_4 (c : Dev nD) (t : Fin cfg3.N) : Vec F S512x1 .f32 :=
  k3_pay6 (acc3 V c t.val t.isLt).1 (acc3 V c t.val t.isLt).2 (iblk3 V c 2 t) (iblk3 V c 3 t)

/-- The two scratch operands as memrefs: whole scoped buffers of the kernel's own. -/
abbrev scS : Memref sig .tc .vmem S64x512 .f32 := Memref.whole cc3_scratch0
abbrev scC : Memref sig .tc .vmem S1x512 .f32 := Memref.whole cc3_scratch1

/-- Every scoped buffer of the core that is neither a staging buffer of this region nor one of its two scratch buffers
    (the other three kernels' staging buffers), each at some contents: carried through the region unopened. -/
def others3 (c : Dev nD) : sProp 𝕄 :=
  Pipeline.scopedRestBut (Ix := Unit) (Name := ℕ) (U := UR sig nD τ) (Lvl := ℕ) (Val := Elt F) spec3 c [cc3_scratch0, cc3_scratch1]

/-- The launch's scoped rest, split at the two scratch buffers. -/
theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f))
          ∗ others3 (F := F) c) :=
  Pipeline.scopedRest_split_of_list spec3 c [cc3_scratch0, cc3_scratch1] (by decide) (by decide)

/-- The region's invariant before position `n`: before the first point the launch's own (every scoped buffer the
    pipeline does not stage at anything, the generator register at some state); afterwards the same with the two carried
    scratch buffers at what the point before left. -/
def Phi3 (c : Dev nD) : (n : ℕ) → n ≤ cfg3.N → sProp 𝕄
  | 0, _ => Pipeline.ΦA spec3 c
  | n + 1, hn => iprop(iprop(iprop(owns (c : Thread nD τ) scS fullShare (acc3 V c n hn).1 ∗ owns (c : Thread nD τ) scC fullShare (acc3 V c n hn).2)
      ∗ others3 (F := F) c) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(iprop(owns (c : Thread nD τ) scS fullShare (acc3 V c n hn).1 ∗ owns (c : Thread nD τ) scC fullShare (acc3 V c n hn).2)
      ∗ others3 (F := F) c) ∗ (∃ r, prngReg c r)) := rfl

theorem Phi3_pos (c : Dev nD) (n : ℕ) (h : n ≤ cfg3.N) (hz : n ≠ 0) :
    Phi3 V c n h = iprop(iprop(iprop(owns (c : Thread nD τ) scS fullShare (acc3 V c (n - 1) (by omega)).1 ∗ owns (c : Thread nD τ) scC fullShare (acc3 V c (n - 1) (by omega)).2)
      ∗ others3 (F := F) c) ∗ (∃ r, prngReg c r)) := by
  cases n with
  | zero => exact absurd rfl hz
  | succ n => rfl

/-- The launch's invariant with the two scratch buffers as memrefs owned at some contents. -/
theorem PhiA3_eq (c : Dev nD) :
    (Pipeline.ΦA spec3 c : sProp 𝕄)
      = iprop(iprop(iprop((∃ d, owns (c : Thread nD τ) scS fullShare d) ∗ (∃ d, owns (c : Thread nD τ) scC fullShare d)) ∗ others3 (F := F) c) ∗ (∃ r, prngReg c r)) := by
  unfold Pipeline.ΦA; rw [scopedRest3_split]; simp only [scS, scC, owns_whole]; try rfl

/-- The pipeline's proof data on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 V c t
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 V c t := by dsimp only [dat3]

/-! ## The inputs' staging buffers hold their blocks -/

/-- The graph ids' staging buffer holds the point's block, whatever proof data has `V`'s array and leaves the block in
    place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The rows' staging buffer holds the point's block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the whole row at every point: it is fetched once and its block never moves. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The bias's staging buffer likewise. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body's two conditions on the grid point -/

/-- The first conditional's condition: the point is the first. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 100 = 0 :=
  (by decide +kernel : ∀ t : Fin grid3.N, cond3_0 (grid3.coords t) ↔ t.val % 100 = 0)

/-- The second conditional's condition: the point is the last. -/
abbrev cond3_1 (i : grid3.Coords) : Prop := k3_cond2 i = 1#1
theorem hcond3_1 : ∀ t : Fin cfg3.N, cond3_1 (grid3.coords t) ↔ t.val % 100 = 99 :=
  (by decide +kernel : ∀ t : Fin grid3.N, cond3_1 (grid3.coords t) ↔ t.val % 100 = 99)

/-- The result window is idle, and not written back, at every point but the last; live there. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl

/-! ## Loads and stores through the whole-buffer rectangle -/

/-- A rectangle of the shape's own sizes that stays inside the shape starts at zero. -/
theorem off_zero3 {S : Shape} {off : Fin S.rank → Nat} (inb : ∀ a, off a + S.size a ≤ S.size a) : off = fun _ => 0 :=
  funext fun a => by have := inb a; omega

/-- A load through the whole-shape rectangle reads the view's contents. -/
theorem readAt_unit3 {sig' : RefSig} {κ : Kind} {sp : Space} {S : Shape} {e : EltTy} (v : View sig' κ sp S e)
    {off : Fin S.rank → Nat} (inb : ∀ a, off a + S.size a ≤ S.size a) (f : v.ty.Contents (Elt F)) :
    v.readAt (Elt F) (Rect.unit off S.size inb).toLoadRect f = v.read (Elt F) f :=
  (View.readAt_eq_ld v f _).trans (View.ld_unit_zero (off_zero3 inb) inb _)

/-- A store through it, last, leaves its payload as the view's contents, whatever was stored before. -/
theorem read_writes_unit3 {sig' : RefSig} {κ : Kind} {sp : Space} {S : Shape} {e : EltTy} (v : View sig' κ sp S e)
    (f : v.ty.Contents (Elt F)) {off : Fin S.rank → Nat} (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero (off_zero3 inb) inb y⟩)).trans
    (View.canon_cons_unit_zero (off_zero3 inb) inb w L)

/-- A load through it after such a store reads the payload. -/
theorem readCov_unit3 {sig' : RefSig} {κ : Kind} {sp : Space} {S : Shape} {e : EltTy} (v : View sig' κ sp S e)
    {off : Fin S.rank → Nat} (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero (off_zero3 inb) inb y⟩),
    View.canon_cons_unit_zero (off_zero3 inb) inb, View.ld_unit_zero (off_zero3 inb) inb]

/-! ## The body on whole memrefs, case by case -/

set_option maxHeartbeats 1000000 in
/-- At the first point: the two scratch buffers, at anything, are zeroed and then take the block's contribution. -/
theorem sound_kernel3_A (c : Dev nD) (E : Set ℕ) (i : grid3.Coords) (arg1 : Memref sig .tc .vmem S1000x1 .i32) (harg1 : arg1.IsWhole) (arg2 : Memref sig .tc .vmem S1000x64 .f32) (harg2 : arg2.IsWhole) (arg3 : Memref sig .tc .vmem S1x64 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S64x512 .f32) (harg6 : arg6.IsWhole) (arg7 : Memref sig .tc .vmem S1x512 .f32) (harg7 : arg7.IsWhole)
    (hc0 : cond3_0 i) (hc1 : ¬cond3_1 i)
    (x0 : Vec F S1000x1 .i32) (x1 : Vec F S1000x64 .f32) (K : PUnit → sProp 𝕄) :
    iprop(owns (c : Thread nD τ) arg1 fullShare x0 ∗ owns (c : Thread nD τ) arg2 fullShare x1 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg6 fullShare (k3_pay4 x0 x1 (k3_pay1 (F := F))) ∗ owns (c : Thread nD τ) arg7 fullShare (k3_pay5 x0 (k3_pay2 (F := F)))) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%d6, %f6, -, H6⟩, ⟨%d7, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    unfold sound_kernel3_A.sl.v15 sound_kernel3_A.sl.H6_1
    rw [read_writes_unit3, readAt_unit3, readAt_unit3, readCov_unit3]
  iexists _; isplitr
  swap; · iexact H7
  ipureintro
  unfold sound_kernel3_A.sl.v21 sound_kernel3_A.sl.H7_1
  rw [read_writes_unit3, readAt_unit3, readCov_unit3]

set_option maxHeartbeats 1000000 in
/-- At a point neither first nor last: the two scratch buffers take the block's contribution. -/
theorem sound_kernel3_B (c : Dev nD) (E : Set ℕ) (i : grid3.Coords) (arg1 : Memref sig .tc .vmem S1000x1 .i32) (harg1 : arg1.IsWhole) (arg2 : Memref sig .tc .vmem S1000x64 .f32) (harg2 : arg2.IsWhole) (arg3 : Memref sig .tc .vmem S1x64 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S64x512 .f32) (harg6 : arg6.IsWhole) (arg7 : Memref sig .tc .vmem S1x512 .f32) (harg7 : arg7.IsWhole)
    (hc0 : ¬cond3_0 i) (hc1 : ¬cond3_1 i)
    (x0 : Vec F S1000x1 .i32) (x1 : Vec F S1000x64 .f32) (xs6 : Vec F S64x512 .f32) (xs7 : Vec F S1x512 .f32) (K : PUnit → sProp 𝕄) :
    iprop(owns (c : Thread nD τ) arg1 fullShare x0 ∗ owns (c : Thread nD τ) arg2 fullShare x1 ∗ owns (c : Thread nD τ) arg6 fullShare xs6 ∗ owns (c : Thread nD τ) arg7 fullShare xs7
        ∗ (iprop(owns (c : Thread nD τ) arg1 fullShare x0 ∗ owns (c : Thread nD τ) arg2 fullShare x1 ∗ owns (c : Thread nD τ) arg6 fullShare (k3_pay4 x0 x1 xs6) ∗ owns (c : Thread nD τ) arg7 fullShare (k3_pay5 x0 xs7)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    rw [read_writes_unit3, readAt_unit3, readAt_unit3, readAt_unit3]
  iexists _; isplitr
  swap; · iexact H7
  ipureintro
  rw [read_writes_unit3, readAt_unit3, readAt_unit3]

set_option maxHeartbeats 1000000 in
/-- At the last point: the two scratch buffers take the block's contribution, and the result buffer, at anything, takes
    the finished sums over the finished counts through the linear layer. -/
theorem sound_kernel3_C (c : Dev nD) (E : Set ℕ) (i : grid3.Coords) (arg1 : Memref sig .tc .vmem S1000x1 .i32) (harg1 : arg1.IsWhole) (arg2 : Memref sig .tc .vmem S1000x64 .f32) (harg2 : arg2.IsWhole) (arg3 : Memref sig .tc .vmem S1x64 .f32) (harg3 : arg3.IsWhole) (arg4 : Memref sig .tc .vmem S1x1 .f32) (harg4 : arg4.IsWhole) (arg5 : Memref sig .tc .vmem S512x1 .f32) (harg5 : arg5.IsWhole) (arg6 : Memref sig .tc .vmem S64x512 .f32) (harg6 : arg6.IsWhole) (arg7 : Memref sig .tc .vmem S1x512 .f32) (harg7 : arg7.IsWhole)
    (hc0 : ¬cond3_0 i) (hc1 : cond3_1 i)
    (x0 : Vec F S1000x1 .i32) (x1 : Vec F S1000x64 .f32) (x2 : Vec F S1x64 .f32) (x3 : Vec F S1x1 .f32)
    (xs6 : Vec F S64x512 .f32) (xs7 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xs6 ∗ owns (c : Thread nD τ) arg7 fullShare xs7
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k3_pay6 (k3_pay4 x0 x1 xs6) (k3_pay5 x0 xs7) x2 x3)
            ∗ owns (c : Thread nD τ) arg6 fullShare (k3_pay4 x0 x1 xs6) ∗ owns (c : Thread nD τ) arg7 fullShare (k3_pay5 x0 xs7)) -∗ K ⟨⟩))
      ⊢ wp frame (wpE (defs₀ (F := F)) Variants.none c none) E (cc3__pool_kernel i arg1 harg1 arg2 harg2 arg3 harg3 arg4 harg4 arg5 harg5 arg6 harg6 arg7 harg7) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    unfold sound_kernel3_C.sl.v30 sound_kernel3_C.sl.v31 sound_kernel3_C.sl.H6_1 sound_kernel3_C.sl.H7_1
    rw [read_writes_unit3, readCov_unit3, readCov_unit3, readAt_unit3, readAt_unit3, readAt_unit3, readAt_unit3, readAt_unit3, readAt_unit3]
  isplitl [H6]
  · iexists _; isplitr
    swap; · iexact H6
    ipureintro
    unfold sound_kernel3_C.sl.H6_1
    rw [read_writes_unit3, readAt_unit3, readAt_unit3, readAt_unit3]
  iexists _; isplitr
  swap; · iexact H7
  ipureintro
  unfold sound_kernel3_C.sl.H7_1
  rw [read_writes_unit3, readAt_unit3, readAt_unit3]

/-! ## The body obligation -/

theorem Phi3_castSucc (c : Dev nD) (t : Fin cfg3.N) :
    (dat3 V c).Φ t.castSucc = Phi3 V c t.val (Nat.le_of_lt t.isLt) := by
  dsimp only [dat3]; simp only [Fin.coe_castSucc]

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4000000 in
/-- The body at any point. The inputs' memrefs hold their blocks. At the first point the invariant hands over the two
    scratch buffers at anything and the body zeroes them first; at a later point it hands them over at what the point
    before left. Either way they come back at this point's sums and counts. The result's buffer is handed back as found
    at every point but the last, where it takes the finished result. The other kernels' buffers, the generator register
    and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  have hN : t.val < 100 := lt_of_lt_of_eq t.isLt (show cfg3.N = 100 from N_3)
  rw [Phi3_castSucc V c t]
  by_cases hz : t.val = 0
  · -- the first point
    have h0 : cond3_0 (grid3.coords t) := (hcond3_0 t).mpr (by omega)
    have h1 : ¬cond3_1 (grid3.coords t) := fun h => by have := (hcond3_1 t).mp h; omega
    rw [Dat.leavesExact_idle (dat3 V c) 4 t (idleAt3_4 t h1) (noFlush3_4 t h1)]
    rw [Phi3_zero V c _ _ hz, PhiA3_eq]
    obtain ⟨n, hn⟩ := t
    obtain rfl : n = 0 := hz
    rw [acc3_zero]
    iintro ⟨⟨⟨⟨HS, HC⟩, HR⟩, Hg⟩, Ho, ⟨%d0, H0⟩, ⟨%d1, H1⟩, ⟨%d2, H2⟩, ⟨%d3, H3⟩, H4⟩
    iapply (sound_kernel3_A c Set.univ _ _ _ _ _ _ _ _ _ _ _ _ _ _ _ h0 h1 (iblk3 V c 0 ⟨0, hn⟩) (iblk3 V c 1 ⟨0, hn⟩) _)
    isplitl [H0]; · iexact H0
    isplitl [H1]; · iexact H1
    isplitl [HS]; · iexact HS
    isplitl [HC]; · iexact HC
    iintro ⟨H0, H1, HS, HC⟩
    isplitl [HS HC HR Hg]
    · isplitl [HS HC HR]
      · isplitl [HS HC]
        · isplitl [HS]; · iexact HS
          iexact HC
        iexact HR
      iexact Hg
    isplitl [Ho]; · iexact Ho
    isplitl [H0]; · iexact H0
    isplitl [H1]; · iexact H1
    isplitl [H2]; · iexact H2
    isplitl [H3]; · iexact H3
    iexact H4
  · have h0 : ¬cond3_0 (grid3.coords t) := fun h => by have := (hcond3_0 t).mp h; omega
    rw [Phi3_pos V c _ _ hz]
    obtain ⟨n, hn⟩ := t
    cases n with
    | zero => exact absurd rfl hz
    | succ n =>
      rw [acc3_succ]
      simp only [Nat.add_sub_cancel]
      by_cases hl : n + 1 = 99
      · -- the last point
        have h1 : cond3_1 (grid3.coords ⟨n + 1, hn⟩) := (hcond3_1 ⟨n + 1, hn⟩).mpr (show (n + 1) % 100 = 99 by omega)
        rw [show (dat3 V c).leavesExact 4 ⟨n + 1, hn⟩ = owns (c : Thread nD τ) (st3_4 ⟨n + 1, hn⟩) fullShare ((dat3 V c).after 4 ⟨n + 1, hn⟩) from by
          unfold Dat.leavesExact; rw [liveAt3_4 _ h1], after3_4]
        unfold out3_4
        rw [acc3_succ]
        iintro ⟨⟨⟨⟨HS, HC⟩, HR⟩, Hg⟩, Ho, ⟨%d0, H0⟩, ⟨%d1, H1⟩, ⟨%d2, H2⟩, ⟨%d3, H3⟩, ⟨%d4, H4⟩⟩
        iapply (sound_kernel3_C c Set.univ _ _ _ _ _ _ _ _ _ _ _ _ _ _ _ h0 h1 (iblk3 V c 0 ⟨n + 1, hn⟩) (iblk3 V c 1 ⟨n + 1, hn⟩) (iblk3 V c 2 ⟨n + 1, hn⟩) (iblk3 V c 3 ⟨n + 1, hn⟩) _ _ _)
        isplitl [H0]; · iexact H0
        isplitl [H1]; · iexact H1
        isplitl [H2]; · iexact H2
        isplitl [H3]; · iexact H3
        isplitl [H4]; · iexists _; iexact H4
        isplitl [HS]; · iexact HS
        isplitl [HC]; · iexact HC
        iintro ⟨H0, H1, H2, H3, H4, HS, HC⟩
        isplitl [HS HC HR Hg]
        · isplitl [HS HC HR]
          · isplitl [HS HC]
            · isplitl [HS]; · iexact HS
              iexact HC
            iexact HR
          iexact Hg
        isplitl [Ho]; · iexact Ho
        isplitl [H0]; · iexact H0
        isplitl [H1]; · iexact H1
        isplitl [H2]; · iexact H2
        isplitl [H3]; · iexact H3
        iexact H4
      · -- a point neither first nor last
        have h1 : ¬cond3_1 (grid3.coords ⟨n + 1, hn⟩) := fun h => by
          have h99 : (n + 1) % 100 = 99 := (hcond3_1 ⟨n + 1, hn⟩).mp h
          have hN' : n + 1 < 100 := hN
          omega
        rw [Dat.leavesExact_idle (dat3 V c) 4 ⟨n + 1, hn⟩ (idleAt3_4 _ h1) (noFlush3_4 _ h1)]
        iintro ⟨⟨⟨⟨HS, HC⟩, HR⟩, Hg⟩, Ho, ⟨%d0, H0⟩, ⟨%d1, H1⟩, ⟨%d2, H2⟩, ⟨%d3, H3⟩, H4⟩
        iapply (sound_kernel3_B c Set.univ _ _ _ _ _ _ _ _ _ _ _ _ _ _ _ h0 h1 (iblk3 V c 0 ⟨n + 1, hn⟩) (iblk3 V c 1 ⟨n + 1, hn⟩) _ _ _)
        isplitl [H0]; · iexact H0
        isplitl [H1]; · iexact H1
        isplitl [HS]; · iexact HS
        isplitl [HC]; · iexact HC
        iintro ⟨H0, H1, HS, HC⟩
        isplitl [HS HC HR Hg]
        · isplitl [HS HC HR]
          · isplitl [HS HC]
            · isplitl [HS]; · iexact HS
              iexact HC
            iexact HR
          iexact Hg
        isplitl [Ho]; · iexact Ho
        isplitl [H0]; · iexact H0
        isplitl [H1]; · iexact H1
        isplitl [H2]; · iexact H2
        isplitl [H3]; · iexact H3
        iexact H4

/-- The launch theorem's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = Phi3 V c 0 (Nat.zero_le _) from rfl, Phi3_zero V c 0 _ rfl]
  try exact Idealize.SL.BI.Entails.refl _

/-- After any point but the first the invariant gives the launch's own back: the scratch buffers' contents are
    forgotten. -/
theorem Phi3_out (c : Dev nD) (t : Fin (cfg3.N + 1)) (ht : t.val ≠ 0) : (dat3 V c).Φ t ⊢ (Pipeline.ΦA spec3 c : sProp 𝕄) := by
  rw [show (dat3 V c).Φ t = Phi3 V c t.val (Nat.le_of_lt_succ t.isLt) from rfl, Phi3_pos V c _ _ ht, PhiA3_eq]
  iintro ⟨⟨⟨HS, HC⟩, HR⟩, Hg⟩
  isplitl [HS HC HR]
  · isplitl [HS HC]
    · isplitl [HS]
      · iexists _; iexact HS
      iexists _; iexact HC
    iexact HR
  iexact Hg

/-- After the last point the invariant gives the launch's own back: the scratch buffers' contents are forgotten. -/
theorem hout3 (c : Dev nD) : (dat3 V c).Φ (Fin.last cfg3.N) ⊢ (Pipeline.ΦA spec3 c : sProp 𝕄) :=
  Phi3_out V c _ (by rw [Fin.val_last]; have : cfg3.N = 100 := N_3; omega)

end Cert.KernelIdeal.Frame

end
-- ==== Proof.KI.Fold.lean ====
/-
  The idealized kernel program's buffers between the items of its main function, on each core: from the launch memory,
  a stretch of host operations leaves what the operations compute, and a kernel region leaves its windows' arrays at
  what the pipeline's write-backs leave (the inputs as entered, the result's blocks folded in) and every other buffer
  as entered. The items: host operations, region 0 (layer 1's matrix product), host operations (twice), region 1
  (layer 2's), host operations (twice), region 2 (layer 3's), host operations, region 3 (pooling and the linear head).
  Each argument of the program is read back through this fold to its launch contents: no host operation writes an
  argument, and a region reads it through an input window or not at all.
-/
import proofs.«409805_j12120397709999_1_alg».proof.Proof.KI.Mat0
import proofs.«409805_j12120397709999_1_alg».proof.Proof.KI.Mat1
import proofs.«409805_j12120397709999_1_alg».proof.Proof.KI.Mat2
import proofs.«409805_j12120397709999_1_alg».proof.Proof.KI.Pool
import proofs.«409805_j12120397709999_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
abbrev W3 : Dev nD → Valuation τ sig (Elt F) := fun c => StableHlo.after hostOps1 (W2 m c)
/-- Region 1's entry. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- At region 1's exit. -/
def W5 (c : Dev nD) : Valuation τ sig (Elt F) :=
  Pipeline.withArrays spec1 c (W4 m c) fun w => (dat1 (V4 m) c).arrAt w cfg1.N
abbrev W6 : Dev nD → Valuation τ sig (Elt F) := fun c => StableHlo.after hostOps2 (W5 m c)
/-- Region 2's entry. -/
abbrev W7 : Dev nD → Valuation τ sig (Elt F) := fun c => StableHlo.after hostOps2_1 (W6 m c)
abbrev V7 : (c : Dev nD) → (b : Ref sig .tc) → Buf (Elt F) ((c : Thread nD τ).loc b) := fun c b => W7 m c b
/-- At region 2's exit. -/
def W8 (c : Dev nD) : Valuation τ sig (Elt F) :=
  Pipeline.withArrays spec2 c (W7 m c) fun w => (dat2 (V7 m) c).arrAt w cfg2.N
/-- Region 3's entry. -/
abbrev W9 : Dev nD → Valuation τ sig (Elt F) := fun c => StableHlo.after hostOps3 (W8 m c)
abbrev V9 : (c : Dev nD) → (b : Ref sig .tc) → Buf (Elt F) ((c : Thread nD τ).loc b) := fun c b => W9 m c b
/-- At region 3's exit: the program's end. -/
def W10 (c : Dev nD) : Valuation τ sig (Elt F) :=
  Pipeline.withArrays spec3 c (W9 m c) fun w => (dat3 (V9 m) c).arrAt w cfg3.N

abbrev V2 : (c : Dev nD) → (b : Ref sig .tc) → Buf (Elt F) ((c : Thread nD τ).loc b) := fun c b => W2 m c b
abbrev V5 : (c : Dev nD) → (b : Ref sig .tc) → Buf (Elt F) ((c : Thread nD τ).loc b) := fun c b => W5 m c b
abbrev V8 : (c : Dev nD) → (b : Ref sig .tc) → Buf (Elt F) ((c : Thread nD τ).loc b) := fun c b => W8 m c b
abbrev V10 : (c : Dev nD) → (b : Ref sig .tc) → Buf (Elt F) ((c : Thread nD τ).loc b) := fun c b => W10 m c b

/-! ## A region's exit: its arrays at what the pipeline leaves, every other buffer as entered -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb

/-- At a region's exit each of its arrays holds what the pipeline leaves and every other buffer what it held at entry. -/
theorem hF0 (c : Dev nD) (w : Fin cfg0.W) : (dat0 (V1 m) c).arrAt w cfg0.N = V2 m c (Pipeline.arrRef spec0 w) := (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V4 m) c).arrAt w cfg1.N = V5 m c (Pipeline.arrRef spec1 w) := (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
theorem hF2 (c : Dev nD) (w : Fin cfg2.W) : (dat2 (V7 m) c).arrAt w cfg2.N = V8 m c (Pipeline.arrRef spec2 w) := (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
theorem hF3 (c : Dev nD) (w : Fin cfg3.W) : (dat3 (V9 m) c).arrAt w cfg3.N = V10 m c (Pipeline.arrRef spec3 w) := (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-! ## A stretch of host operations leaves a buffer it does not write as it was -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W6_of (c : Dev nD) (r : Ref sig .tc) (h : r ∉ hostOps2_W) : W6 m c r = W5 m c r :=
  StableHlo.after_of_writes_sub hostOps2 _ hostOps2_writes h
theorem W7_of (c : Dev nD) (r : Ref sig .tc) (h : r ∉ hostOps2_1_W) : W7 m c r = W6 m c r :=
  StableHlo.after_of_writes_sub hostOps2_1 _ hostOps2_1_writes h
theorem W9_of (c : Dev nD) (r : Ref sig .tc) (h : r ∉ hostOps3_W) : W9 m c r = W8 m c r :=
  StableHlo.after_of_writes_sub hostOps3 _ hostOps3_writes h

end Cert.KernelIdeal.Frame

end
-- ==== Proof.KI.Run.lean ====
/-
  The idealized kernel program runs: at the compiled mesh, from any memory with zero semaphore counters, every weakly
  fair execution of its main function terminates, nothing faulting, and the final memory holds every unscoped buffer
  at the last boundary's contents `W10` — in particular each argument as launched, and the result array at what
  region 3's one write-back leaves. The main function is ten items in a row: six stretches of host operations and four
  kernel regions; each region is entered from "every unscoped buffer at the boundary's contents" and left at the next
  boundary's, its windows' arrays split out of the unscoped buffers at entry and put back at exit.
-/
import proofs.«409805_j12120397709999_1_alg».proof.Proof.KI.Fold

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched: no host operation writes one, and a region reads it through an input window
    (whose array the pipeline leaves as entered) or not at all, so the fold at an argument's buffer walks back to the
    launch memory -/
/-- Argument 0 reaches the end as launched. -/
theorem W10_main_arg0 (c : Dev nD) : W10 m c (Proc.devRef .tc main_arg0) = m ((c : Thread nD τ).loc main_arg0) :=
  calc W10 m c (Proc.devRef .tc main_arg0)
    _ = W9 m c (Proc.devRef .tc main_arg0) := W10_of_ne m c main_arg0 (by decide)
    _ = W8 m c (Proc.devRef .tc main_arg0) := W9_of m c main_arg0 (by decide)
    _ = W7 m c (Proc.devRef .tc main_arg0) := W8_of_ne m c main_arg0 (by decide)
    _ = W6 m c (Proc.devRef .tc main_arg0) := W7_of m c main_arg0 (by decide)
    _ = W5 m c (Proc.devRef .tc main_arg0) := W6_of m c main_arg0 (by decide)
    _ = W4 m c (Proc.devRef .tc main_arg0) := W5_of_ne m c main_arg0 (by decide)
    _ = W3 m c (Proc.devRef .tc main_arg0) := W4_of m c main_arg0 (by decide)
    _ = W2 m c (Proc.devRef .tc main_arg0) := W3_of m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
/-- Argument 1 reaches the end as launched. -/
theorem W10_main_arg1 (c : Dev nD) : W10 m c (Proc.devRef .tc main_arg1) = m ((c : Thread nD τ).loc main_arg1) :=
  calc W10 m c (Proc.devRef .tc main_arg1)
    _ = W9 m c (Proc.devRef .tc main_arg1) := W10_of_ne m c main_arg1 (by decide)
    _ = W8 m c (Proc.devRef .tc main_arg1) := W9_of m c main_arg1 (by decide)
    _ = W7 m c (Proc.devRef .tc main_arg1) := W8_of_ne m c main_arg1 (by decide)
    _ = W6 m c (Proc.devRef .tc main_arg1) := W7_of m c main_arg1 (by decide)
    _ = W5 m c (Proc.devRef .tc main_arg1) := W6_of m c main_arg1 (by decide)
    _ = W4 m c (Proc.devRef .tc main_arg1) := W5_of_ne m c main_arg1 (by decide)
    _ = W3 m c (Proc.devRef .tc main_arg1) := W4_of m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
/-- Argument 2 reaches the end as launched. -/
theorem W10_main_arg2 (c : Dev nD) : W10 m c (Proc.devRef .tc main_arg2) = m ((c : Thread nD τ).loc main_arg2) :=
  calc W10 m c (Proc.devRef .tc main_arg2)
    _ = W9 m c (Proc.devRef .tc main_arg2) := W10_of_ne m c main_arg2 (by decide)
    _ = W8 m c (Proc.devRef .tc main_arg2) := W9_of m c main_arg2 (by decide)
    _ = W7 m c (Proc.devRef .tc main_arg2) := W8_of_ne m c main_arg2 (by decide)
    _ = W6 m c (Proc.devRef .tc main_arg2) := W7_of m c main_arg2 (by decide)
    _ = W5 m c (Proc.devRef .tc main_arg2) := W6_of m c main_arg2 (by decide)
    _ = W4 m c (Proc.devRef .tc main_arg2) := W5_of_ne m c main_arg2 (by decide)
    _ = W3 m c (Proc.devRef .tc main_arg2) := W4_of m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
/-- Argument 3 reaches the end as launched. -/
theorem W10_main_arg3 (c : Dev nD) : W10 m c (Proc.devRef .tc main_arg3) = m ((c : Thread nD τ).loc main_arg3) :=
  calc W10 m c (Proc.devRef .tc main_arg3)
    _ = W9 m c (Proc.devRef .tc main_arg3) := W10_of_ne m c main_arg3 (by decide)
    _ = W8 m c (Proc.devRef .tc main_arg3) := W9_of m c main_arg3 (by decide)
    _ = W7 m c (Proc.devRef .tc main_arg3) := W8_of_ne m c main_arg3 (by decide)
    _ = W6 m c (Proc.devRef .tc main_arg3) := W7_of m c main_arg3 (by decide)
    _ = W5 m c (Proc.devRef .tc main_arg3) := W6_of m c main_arg3 (by decide)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of m c main_arg3 (by decide)
    _ = W1 m c (Proc.devRef .tc main_arg3) := (W2_arr m c 1).trans (((dat0 (V1 m) c).arrAt_in 1 rfl _).trans (A_eq0 (V1 m) c 1))
    _ = W0 m c (Proc.devRef .tc main_arg3) := W1_of m c main_arg3 (by decide)
    _ = m ((c : Thread nD τ).loc main_arg3) := rfl
/-- Argument 4 reaches the end as launched. -/
theorem W10_main_arg4 (c : Dev nD) : W10 m c (Proc.devRef .tc main_arg4) = m ((c : Thread nD τ).loc main_arg4) :=
  calc W10 m c (Proc.devRef .tc main_arg4)
    _ = W9 m c (Proc.devRef .tc main_arg4) := W10_of_ne m c main_arg4 (by decide)
    _ = W8 m c (Proc.devRef .tc main_arg4) := W9_of m c main_arg4 (by decide)
    _ = W7 m c (Proc.devRef .tc main_arg4) := W8_of_ne m c main_arg4 (by decide)
    _ = W6 m c (Proc.devRef .tc main_arg4) := W7_of m c main_arg4 (by decide)
    _ = W5 m c (Proc.devRef .tc main_arg4) := W6_of m c main_arg4 (by decide)
    _ = W4 m c (Proc.devRef .tc main_arg4) := W5_of_ne m c main_arg4 (by decide)
    _ = W3 m c (Proc.devRef .tc main_arg4) := W4_of m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
/-- Argument 5 reaches the end as launched. -/
theorem W10_main_arg5 (c : Dev nD) : W10 m c (Proc.devRef .tc main_arg5) = m ((c : Thread nD τ).loc main_arg5) :=
  calc W10 m c (Proc.devRef .tc main_arg5)
    _ = W9 m c (Proc.devRef .tc main_arg5) := W10_of_ne m c main_arg5 (by decide)
    _ = W8 m c (Proc.devRef .tc main_arg5) := W9_of m c main_arg5 (by decide)
    _ = W7 m c (Proc.devRef .tc main_arg5) := W8_of_ne m c main_arg5 (by decide)
    _ = W6 m c (Proc.devRef .tc main_arg5) := W7_of m c main_arg5 (by decide)
    _ = W5 m c (Proc.devRef .tc main_arg5) := W6_of m c main_arg5 (by decide)
    _ = W4 m c (Proc.devRef .tc main_arg5) := (W5_arr m c 1).trans (((dat1 (V4 m) c).arrAt_in 1 rfl _).trans (A_eq1 (V4 m) c 1))
    _ = W3 m c (Proc.devRef .tc main_arg5) := W4_of m c main_arg5 (by decide)
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
/-- Argument 6 reaches the end as launched. -/
theorem W10_main_arg6 (c : Dev nD) : W10 m c (Proc.devRef .tc main_arg6) = m ((c : Thread nD τ).loc main_arg6) :=
  calc W10 m c (Proc.devRef .tc main_arg6)
    _ = W9 m c (Proc.devRef .tc main_arg6) := W10_of_ne m c main_arg6 (by decide)
    _ = W8 m c (Proc.devRef .tc main_arg6) := W9_of m c main_arg6 (by decide)
    _ = W7 m c (Proc.devRef .tc main_arg6) := W8_of_ne m c main_arg6 (by decide)
    _ = W6 m c (Proc.devRef .tc main_arg6) := W7_of m c main_arg6 (by decide)
    _ = W5 m c (Proc.devRef .tc main_arg6) := W6_of m c main_arg6 (by decide)
    _ = W4 m c (Proc.devRef .tc main_arg6) := W5_of_ne m c main_arg6 (by decide)
    _ = W3 m c (Proc.devRef .tc main_arg6) := W4_of m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
/-- Argument 7 reaches the end as launched. -/
theorem W10_main_arg7 (c : Dev nD) : W10 m c (Proc.devRef .tc main_arg7) = m ((c : Thread nD τ).loc main_arg7) :=
  calc W10 m c (Proc.devRef .tc main_arg7)
    _ = W9 m c (Proc.devRef .tc main_arg7) := W10_of_ne m c main_arg7 (by decide)
    _ = W8 m c (Proc.devRef .tc main_arg7) := W9_of m c main_arg7 (by decide)
    _ = W7 m c (Proc.devRef .tc main_arg7) := (W8_arr m c 1).trans (((dat2 (V7 m) c).arrAt_in 1 rfl _).trans (A_eq2 (V7 m) c 1))
    _ = W6 m c (Proc.devRef .tc main_arg7) := W7_of m c main_arg7 (by decide)
    _ = W5 m c (Proc.devRef .tc main_arg7) := W6_of m c main_arg7 (by decide)
    _ = W4 m c (Proc.devRef .tc main_arg7) := W5_of_ne m c main_arg7 (by decide)
    _ = W3 m c (Proc.devRef .tc main_arg7) := W4_of m c main_arg7 (by decide)
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
/-- Argument 8 reaches the end as launched. -/
theorem W10_main_arg8 (c : Dev nD) : W10 m c (Proc.devRef .tc main_arg8) = m ((c : Thread nD τ).loc main_arg8) :=
  calc W10 m c (Proc.devRef .tc main_arg8)
    _ = W9 m c (Proc.devRef .tc main_arg8) := W10_of_ne m c main_arg8 (by decide)
    _ = W8 m c (Proc.devRef .tc main_arg8) := W9_of m c main_arg8 (by decide)
    _ = W7 m c (Proc.devRef .tc main_arg8) := W8_of_ne m c main_arg8 (by decide)
    _ = W6 m c (Proc.devRef .tc main_arg8) := W7_of m c main_arg8 (by decide)
    _ = W5 m c (Proc.devRef .tc main_arg8) := W6_of m c main_arg8 (by decide)
    _ = W4 m c (Proc.devRef .tc main_arg8) := W5_of_ne m c main_arg8 (by decide)
    _ = W3 m c (Proc.devRef .tc main_arg8) := W4_of m c main_arg8 (by decide)
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl
/-- Argument 9 reaches the end as launched. -/
theorem W10_main_arg9 (c : Dev nD) : W10 m c (Proc.devRef .tc main_arg9) = m ((c : Thread nD τ).loc main_arg9) :=
  calc W10 m c (Proc.devRef .tc main_arg9)
    _ = W9 m c (Proc.devRef .tc main_arg9) := (W10_arr m c 2).trans (((dat3 (V9 m) c).arrAt_in 2 rfl _).trans (A_eq3 (V9 m) c 2))
    _ = W8 m c (Proc.devRef .tc main_arg9) := W9_of m c main_arg9 (by decide)
    _ = W7 m c (Proc.devRef .tc main_arg9) := W8_of_ne m c main_arg9 (by decide)
    _ = W6 m c (Proc.devRef .tc main_arg9) := W7_of m c main_arg9 (by decide)
    _ = W5 m c (Proc.devRef .tc main_arg9) := W6_of m c main_arg9 (by decide)
    _ = W4 m c (Proc.devRef .tc main_arg9) := W5_of_ne m c main_arg9 (by decide)
    _ = W3 m c (Proc.devRef .tc main_arg9) := W4_of m c main_arg9 (by decide)
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl
/-- Argument 10 reaches the end as launched. -/
theorem W10_main_arg10 (c : Dev nD) : W10 m c (Proc.devRef .tc main_arg10) = m ((c : Thread nD τ).loc main_arg10) :=
  calc W10 m c (Proc.devRef .tc main_arg10)
    _ = W9 m c (Proc.devRef .tc main_arg10) := W10_of_ne m c main_arg10 (by decide)
    _ = W8 m c (Proc.devRef .tc main_arg10) := W9_of m c main_arg10 (by decide)
    _ = W7 m c (Proc.devRef .tc main_arg10) := W8_of_ne m c main_arg10 (by decide)
    _ = W6 m c (Proc.devRef .tc main_arg10) := W7_of m c main_arg10 (by decide)
    _ = W5 m c (Proc.devRef .tc main_arg10) := W6_of m c main_arg10 (by decide)
    _ = W4 m c (Proc.devRef .tc main_arg10) := W5_of_ne m c main_arg10 (by decide)
    _ = W3 m c (Proc.devRef .tc main_arg10) := W4_of m c main_arg10 (by decide)
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl

/-! ## The proof data family and the thread state -/

/-- Every pipeline's proof data, each at its region's entry contents — a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
  | ⟨2, _⟩ => fun c => dat2 (V7 m) c
  | ⟨3, _⟩ => fun c => dat3 (V9 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it leaves those references at what the operations compute from `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without what the core owes (the chain ends at it BESIDE the core owing nothing): every
    unscoped buffer at the last boundary's contents `W10`, the generator register at some state. -/
abbrev Tₙ (c : Dev nD) : sProp 𝕄 := iprop(StableHlo.held (c : Thread nD τ) (Pipeline.ucRefs τ sig) (W10 m c) ∗ ∃ r, prngReg c r)

/-! ## The regions as segments -/

-- a library lemma stated over the pinned configuration of pipeline `p` unifies with the printed configuration only
-- when unification may unfold plain definitions in a metavariable's type
set_option backward.isDefEq.respectTransparency.types false in
/-- REGION 0 (layer 1's matrix product) over the thread state: entered from every unscoped buffer at `W1`, left at `W2`.
    Its windows' arrays are split out of the unscoped buffers at entry and put back at the exit contents; the generator
    register goes into the pipeline's invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline `p` unifies with the printed configuration only
-- when unification may unfold plain definitions in a metavariable's type
set_option backward.isDefEq.respectTransparency.types false in
/-- REGION 1 (layer 2's matrix product) over the thread state: entered from every unscoped buffer at `W4`, left at `W5`.
    Its windows' arrays are split out of the unscoped buffers at entry and put back at the exit contents; the generator
    register goes into the pipeline's invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline `p` unifies with the printed configuration only
-- when unification may unfold plain definitions in a metavariable's type
set_option backward.isDefEq.respectTransparency.types false in
/-- REGION 2 (layer 3's matrix product) over the thread state: entered from every unscoped buffer at `W7`, left at `W8`.
    Its windows' arrays are split out of the unscoped buffers at entry and put back at the exit contents; the generator
    register goes into the pipeline's invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline `p` unifies with the printed configuration only
-- when unification may unfold plain definitions in a metavariable's type
set_option backward.isDefEq.respectTransparency.types false in
/-- REGION 3 (the pooling and the linear head) over the thread state: entered from every unscoped buffer at `W9`, left at `W10` (what the launch reads at the end).
    Its windows' arrays are split out of the unscoped buffers at entry and put back at the exit contents; the generator
    register goes into the pipeline's invariant and comes out; nothing is owed; the kernel has no semaphore of its own.
    The invariant of this region carries the two scratch buffers, so the launch's own invariant is taken to its first
    position and back from its last by the two entailments of the pooling module. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V9 m) c)
    unfold Pipeline.ΦA
    iintro ⟨Hp, -, Hr⟩
    isplitl [Hr]; · iexact Hr
    iexact Hp
  hout c := by
    refine BIBase.Entails.trans (hout3 (V9 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The main function as segments, and the launch -/

/-- The main function's ten items in order: a host segment per stretch from its boundary's contents, a region per kernel. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .host (hseg hostOps2_1 hostOps2_1_sub hostOps2_1_fresh (W6 m)),
    .region (reg2 m),
    .host (hseg hostOps3 hostOps3_sub hostOps3_fresh (W8 m)),
    .region (reg3 m) ]

-- the launch theorem's implicit arguments are found by unifying its conclusion with this one, which takes unfolding
-- plain definitions in a metavariable's type
set_option backward.isDefEq.respectTransparency.types false in
/-- THE RUN: every final memory holds every unscoped buffer at `W10`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- THE FRAME: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W10_main_arg0 m c),
     (h c _ (mem_uc main_arg1 (by decide))).trans (W10_main_arg1 m c),
     (h c _ (mem_uc main_arg2 (by decide))).trans (W10_main_arg2 m c),
     (h c _ (mem_uc main_arg3 (by decide))).trans (W10_main_arg3 m c),
     (h c _ (mem_uc main_arg4 (by decide))).trans (W10_main_arg4 m c),
     (h c _ (mem_uc main_arg5 (by decide))).trans (W10_main_arg5 m c),
     (h c _ (mem_uc main_arg6 (by decide))).trans (W10_main_arg6 m c),
     (h c _ (mem_uc main_arg7 (by decide))).trans (W10_main_arg7 m c),
     (h c _ (mem_uc main_arg8 (by decide))).trans (W10_main_arg8 m c),
     (h c _ (mem_uc main_arg9 (by decide))).trans (W10_main_arg9 m c),
     (h c _ (mem_uc main_arg10 (by decide))).trans (W10_main_arg10 m c)⟩)
    (run_all m ρ)

end Cert.KernelIdeal.Frame

end
-- ==== Proof.Val.Mat0.lean ====
/-
  Region 0's result array at the extended reals: the blocks the grid points write back are the row blocks of ONE matrix
  product, the product of the whole left operand and the right operand as the region finds them — the same function
  the host's `dot_general` of those two arrays is.
-/
import proofs.«409805_j12120397709999_1_alg».proof.Proof.KI.Mat0
import proofs.«409805_j12120397709999_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)
open scoped BigOperators

/-! ## The index pairs of a product: row `i 0` of the left operand against column `i 1` of the right, at `k` -/

/-- The left operand's index for result index `i` and contraction coordinate `k`: row `i 0`, column `k`. -/
abbrev arr0_lrow (i : S100000x64.Idx) (k : Fin 128) : S100000x128.Idx := fun a => match a with
  | ⟨0, _⟩ => ⟨(i 0).val, (i 0).isLt⟩
  | ⟨1, _⟩ => ⟨k.val, k.isLt⟩
/-- The right operand's: row `k`, column `i 1`. -/
abbrev arr0_rcol (i : S100000x64.Idx) (k : Fin 128) : S128x64.Idx := fun a => match a with
  | ⟨0, _⟩ => ⟨k.val, k.isLt⟩
  | ⟨1, _⟩ => ⟨(i 1).val, (i 1).isLt⟩
/-- The same two inside one row block: the left block's index for the block's result index `j`, -/
abbrev arr0_lblk (j : S5000x64.Idx) (k : Fin 128) : S5000x128.Idx := fun a => match a with
  | ⟨0, _⟩ => ⟨(j 0).val, (j 0).isLt⟩
  | ⟨1, _⟩ => ⟨k.val, k.isLt⟩
/-- and the right operand's. -/
abbrev arr0_rblk (j : S5000x64.Idx) (k : Fin 128) : S128x64.Idx := fun a => match a with
  | ⟨0, _⟩ => ⟨k.val, k.isLt⟩
  | ⟨1, _⟩ => ⟨(j 1).val, (j 1).isLt⟩

/-- The matrix product of a whole left operand and a right operand, index by index. -/
def arr0_prod (X : FVec Ideal S100000x128 .f32) (Wm : FVec Ideal S128x64 .f32) : FVec Ideal S100000x64 .f32 :=
  fun i => ∑ k : Fin 128, X (arr0_lrow i k) * Wm (arr0_rcol i k)

/-! ## The host's `dot_general` at an index -/

theorem arr0_hlhs_0 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin S100000x128.rank) ∈ Cert.ReferenceIdeal.dot_S100000x128_S128x64_S100000x64_1_0_0_1_n_n.lhsBatch by decide), dif_pos (show (0 : Fin S100000x128.rank) ∈ Cert.ReferenceIdeal.dot_S100000x128_S128x64_S100000x64_1_0_0_1_n_n.lhsNonContracting by decide)]
  rfl
theorem arr0_hlhs_1 (i : S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
theorem arr0_hrhs_0 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
theorem arr0_hrhs_1 (i : S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin S128x64.rank) ∈ Cert.ReferenceIdeal.dot_S100000x128_S128x64_S100000x64_1_0_0_1_n_n.rhsBatch by decide), dif_pos (show (1 : Fin S128x64.rank) ∈ Cert.ReferenceIdeal.dot_S100000x128_S128x64_S100000x64_1_0_0_1_n_n.rhsNonContracting by decide)]
  rfl

/-- The host's one contraction axis, as its coordinate. -/
abbrev arr0_hcontr : Cert.ReferenceIdeal.dot_S100000x128_S128x64_S100000x64_1_0_0_1_n_n.contr.Idx ≃ Fin 128 :=
  ValueIdx.contrEquiv1 Cert.ReferenceIdeal.dot_S100000x128_S128x64_S100000x64_1_0_0_1_n_n _ rfl rfl

/-- The host's `dot_general` of any two operands is their matrix product. -/
theorem arr0_hostDot (l : FVec Ideal S100000x128 .f32) (r : FVec Ideal S128x64 .f32) :
    Host.dotGeneral (F := Ideal) (φ₁ := .f32) (φ₂ := .f32) Cert.ReferenceIdeal.dot_S100000x128_S128x64_S100000x64_1_0_0_1_n_n none l r
      = arr0_prod l r := by
  funext i
  unfold arr0_prod
  simp only [Host.dotGeneral]
  rw [Ideal.dotGeneral_apply, ← Equiv.sum_comp arr0_hcontr.symm]
  refine Finset.sum_congr rfl fun k _ => ?_
  have hk := ValueIdx.contrEquiv1_symm_val Cert.ReferenceIdeal.dot_S100000x128_S128x64_S100000x64_1_0_0_1_n_n _ rfl rfl k
  have el : Cert.ReferenceIdeal.dot_S100000x128_S128x64_S100000x64_1_0_0_1_n_n.lhsIdx i (arr0_hcontr.symm k) = arr0_lrow i k := funext fun a => Fin.ext (by
    match a with
    | ⟨0, _⟩ => exact arr0_hlhs_0 _ _
    | ⟨1, _⟩ => exact (arr0_hlhs_1 _ _).trans hk)
  have er : Cert.ReferenceIdeal.dot_S100000x128_S128x64_S100000x64_1_0_0_1_n_n.rhsIdx i (arr0_hcontr.symm k) = arr0_rcol i k := funext fun a => Fin.ext (by
    match a with
    | ⟨0, _⟩ => exact (arr0_hrhs_0 _ _).trans hk
    | ⟨1, _⟩ => exact arr0_hrhs_1 _ _)
  rw [el, er]

/-! ## The body's product at an index -/

theorem arr0_klhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem arr0_klhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem arr0_krhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem arr0_krhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's one contraction axis, as its coordinate. -/
abbrev arr0_kcontr : dot_S5000x128_S128x64_S5000x64_1_0_0_1_n_n.contr.Idx ≃ Fin 128 :=
  ValueIdx.contrEquiv1 dot_S5000x128_S128x64_S5000x64_1_0_0_1_n_n _ rfl rfl

/-- The body's payload at an index of its block: the format changes are the identity on the extended reals and the
    product accumulates from zero, so it is the plain sum over the contraction coordinate. -/
theorem arr0_pay (x0 : FVec Ideal S5000x128 .f32) (x1 : FVec Ideal S128x64 .f32) (j : S5000x64.Idx) :
    k0_pay1 (F := Ideal) x0 x1 j = ∑ k : Fin 128, x0 (arr0_lblk j k) * x1 (arr0_rblk j k) := by
  unfold k0_pay1
  show FloatOps.matmul dot_S5000x128_S128x64_S5000x64_1_0_0_1_n_n none _ _ (constant (F := Ideal) S5000x64 .f32 0x00000000#32) j = _
  rw [Ideal.matmul_constant_zero_apply, ← Equiv.sum_comp arr0_kcontr.symm]
  refine Finset.sum_congr rfl fun k _ => ?_
  have hk := ValueIdx.contrEquiv1_symm_val dot_S5000x128_S128x64_S5000x64_1_0_0_1_n_n _ rfl rfl k
  have el : dot_S5000x128_S128x64_S5000x64_1_0_0_1_n_n.lhsIdx j (arr0_kcontr.symm k) = arr0_lblk j k := funext fun a => Fin.ext (by
    match a with
    | ⟨0, _⟩ => exact arr0_klhs_0 _ _
    | ⟨1, _⟩ => exact (arr0_klhs_1 _ _).trans hk)
  have er : dot_S5000x128_S128x64_S5000x64_1_0_0_1_n_n.rhsIdx j (arr0_kcontr.symm k) = arr0_rblk j k := funext fun a => Fin.ext (by
    match a with
    | ⟨0, _⟩ => exact (arr0_krhs_0 _ _).trans hk
    | ⟨1, _⟩ => exact arr0_krhs_1 _ _)
  rw [el, er]
  simp only [ValueIdx.truncf_apply, shapeCast_self]

/-- One point's block against the whole product: when the point's left block is the rows of the left operand that the
    result index `i` names and its right block the right operand, the payload at `j` is the product at `i`. -/
theorem arr0_point (X : FVec Ideal S100000x128 .f32) (Wm : FVec Ideal S128x64 .f32)
    (x0 : FVec Ideal S5000x128 .f32) (x1 : FVec Ideal S128x64 .f32) (j : S5000x64.Idx) (i : S100000x64.Idx)
    (h0 : ∀ k : Fin 128, x0 (arr0_lblk j k) = X (arr0_lrow i k))
    (h1 : ∀ k : Fin 128, x1 (arr0_rblk j k) = Wm (arr0_rcol i k)) :
    k0_pay1 (F := Ideal) x0 x1 j = arr0_prod X Wm i := by
  rw [arr0_pay]
  unfold arr0_prod
  exact Finset.sum_congr rfl fun k _ => by rw [h0 k, h1 k]

/-! ## From the points' blocks to the array -/

theorem arr0_hz : (![0, 0] : Fin 2 → Nat) = fun _ => 0 := funext fun a => by fin_cases a <;> rfl

/-- The printed index maps, decided over the grid: the left operand's and the result's blocks move down the rows with
    the point, the right operand's stays. -/
theorem arr0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every row block of the result is some point's. -/
theorem arr0_onto : ∀ q : Fin 20, ∃ t : Fin cfg0.N, win0_2.index t = ![q.val, 0] :=
  (by decide +kernel : ∀ q : Fin 20, ∃ t : Fin grid0.N, win0_2.index t = ![q.val, 0])

/-- What point `t` writes back is block `t` of the product of the two operand arrays as the region finds them. -/
theorem arr0_flushed (V : (c : Dev nD) → (b : Ref sig .tc) → Buf (Elt Ideal) ((c : Thread nD τ).loc b)) (c : Dev nD) (t : Fin cfg0.N) :
    (Frame.dat0 (F := Ideal) V c).flushed 2 t
      = ((cfg0.win 2).blk t).view.read (Elt Ideal) (arr0_prod (V c main_arg0) (V c main_arg3)) := by
  show (cfg0.win 2).cut (grid0.coords t) ((Frame.dat0 (F := Ideal) V c).after 2 t) = _
  rw [Frame.after0_2]
  unfold Frame.out0_2
  rw [View.canon_unit_zero arr0_hz]
  simp only [View.ld_unit_zero (S := S5000x128) arr0_hz, View.ld_unit_zero (S := S128x64) arr0_hz]
  obtain ⟨e00, e01, e10, e11, e20, e21⟩ := arr0_idx t
  funext j
  show k0_pay1 (F := Ideal) (Frame.iblk0 V c 0 t) (Frame.iblk0 V c 1 t) j
    = arr0_prod (V c main_arg0) (V c main_arg3) (((cfg0.win 2).blk t).view.emb j)
  refine arr0_point _ _ _ _ j _ (fun k => ?_) (fun k => ?_)
  · show V c main_arg0 (((cfg0.win 0).blk t).view.emb (arr0_lblk j k)) = V c main_arg0 (arr0_lrow (((cfg0.win 2).blk t).view.emb j) k)
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * S5000x128.size 1 + 1 * k.val = k.val; rw [e01]; omega
  · show V c main_arg3 (((cfg0.win 1).blk t).view.emb (arr0_rblk j k)) = V c main_arg3 (arr0_rcol (((cfg0.win 2).blk t).view.emb j) k)
    refine congrArg _ (funext fun a => Fin.ext ?_)
    match a with
    | ⟨0, _⟩ => show win0_1.index t (0 : Fin 2) * S128x64.size 0 + 1 * k.val = k.val; rw [e10]; omega
    | ⟨1, _⟩ => show win0_1.index t (1 : Fin 2) * 64 + 1 * (j 1).val = win0_2.index t (1 : Fin 2) * 64 + 1 * (j 1).val; omega

/-- An index of the result array is in point `t`'s block iff each coordinate is in the block's range on its axis. -/
theorem arr0_mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole (Pipeline.arrRef spec0 2)).slice (win0_2.rect t)).set ↔ _
  rw [View.set_slice_whole, Rect.mem_set_unit]
  exact Iff.rfl

/-- Every index of the result array is in some point's block: row `r` is in the block of point `r / 5000`. -/
theorem arr0_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := arr0_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [arr0_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After region 0 its result array is the host matrix product of its two operand arrays. -/
theorem arr0 (V : (c : Dev nD) → (b : Ref sig .tc) → Buf (Elt Ideal) ((c : Thread nD τ).loc b)) (c : Dev nD) :
    ((Frame.dat0 (F := Ideal) V c).arrAt 2 cfg0.N : FVec Ideal S100000x64 .f32)
      = Host.dotGeneral (F := Ideal) (φ₁ := .f32) (φ₂ := .f32) Cert.ReferenceIdeal.dot_S100000x128_S128x64_S100000x64_1_0_0_1_n_n none
          (V c main_arg0 : FVec Ideal S100000x128 .f32) (V c main_arg3 : FVec Ideal S128x64 .f32) := by
  rw [arr0_hostDot]
  exact (Frame.dat0 (F := Ideal) V c).arrAt_eq_of_cover 2 (arr0_prod (V c main_arg0) (V c main_arg3))
    (fun t _ => arr0_flushed V c t) arr0_cover

end Cert.KernelIdeal.Val

end
-- ==== Proof.Val.Chain.lean ====
/-
  The kernel program's host operations at the extended reals, stage by stage against the reference's: the two programs
  apply the SAME host operations around each matrix product — the edge lists with their self loops, the degrees and
  the symmetric normalisation, then per layer the gather of the projected rows, the scaling, the accumulating scatter,
  the bias and (twice) the rectifier — so once each region's product is the host product of the same operands
  (`arr0`, `arr1`, `arr2`), each buffer the next item reads holds the reference's value of the same name. At region 3's
  entry: the rows are the reference's third layer output, the ids and the bias the arguments laid out as a column and
  as a 1 x 1 matrix, the weights the argument itself.

  One equation per buffer that a later item reads, in program order: the buffer at an item boundary is the reference's
  value of the same name at the program's arguments. A stretch of host operations leaves the operations' composed
  term over the buffers it finds; those hold the reference's earlier values, and the stretch's own operations are the
  same on both sides. A buffer written early and read late (the two edge lists, the edge weights, the arguments) is
  carried through the items in between, none of which writes it.
-/
import proofs.«409805_j12120397709999_1_alg».proof.Proof.KI.Fold
import proofs.«409805_j12120397709999_1_alg».proof.Proof.Val.Mat0
import proofs.«409805_j12120397709999_1_alg».proof.Proof.Val.Mat1
import proofs.«409805_j12120397709999_1_alg».proof.Proof.Val.Mat2
import proofs.«409805_j12120397709999_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)

open Idealize.ShloMosaic.ValueIdx

variable (m : (ℓ : Loc nD τ sig) → Buf (Elt Ideal) ℓ) (c : Dev nD)

/-- The launch memory at a core's buffer. -/
theorem W0_eq (r : Ref sig .tc) : Frame.W0 (F := Ideal) m c r = m ((c.tc : Thread nD τ).loc r) := rfl

/-! ## The first stretch: the edge lists with their self loops and the symmetric normalisation -/

open Cert.ReferenceIdeal.Read in
/-- The source list after the first stretch. -/
theorem W1_v3 : (Frame.W1 (F := Ideal) m c main_v3 : Vec Ideal S1700000 .i32)
    = Cert.ReferenceIdeal.Read.val_main_v3 (F := Ideal) (m ((c.tc : Thread nD τ).loc main_arg1)) := by
  show StableHlo.after hostOps0 (Frame.W0 m c) (Proc.devRef .tc main_v3) = _
  after_results
  unfold val_main_v3 val_main_v2 val_main_v1 val_main_v0
  rfl

open Cert.ReferenceIdeal.Read in
/-- The destination list after the first stretch. -/
theorem W1_v6 : (Frame.W1 (F := Ideal) m c main_v6 : Vec Ideal S1700000 .i32)
    = Cert.ReferenceIdeal.Read.val_main_v6 (F := Ideal) (m ((c.tc : Thread nD τ).loc main_arg1)) := by
  show StableHlo.after hostOps0 (Frame.W0 m c) (Proc.devRef .tc main_v6) = _
  after_results
  unfold val_main_v6 val_main_v5 val_main_v4 val_main_v0
  rfl

open Cert.ReferenceIdeal.Read in
/-- The edge weights after the first stretch: the product of the two gathered inverse square roots of the degrees. -/
theorem W1_v28 : (Frame.W1 (F := Ideal) m c main_v28 : FVec Ideal S1700000 .f32)
    = Cert.ReferenceIdeal.Read.val_main_v28 (F := Ideal) (m ((c.tc : Thread nD τ).loc main_arg1)) := by
  show StableHlo.after hostOps0 (Frame.W0 m c) (Proc.devRef .tc main_v28) = _
  after_results_simp
  unfold val_main_v28 val_main_v27 val_main_v26 val_main_v25 val_main_v24 val_main_v23 val_main_c_4 val_main_v22 val_main_v21 val_main_c_3
    val_main_v20 val_main_v19 val_main_v18 val_main_v17 val_main_v16 val_main_c_2 val_main_v15 val_main_v14 val_main_c
    val_main_v13 val_main_v12 val_main_v11 val_main_cst_1 val_main_v10 val_main_v9 val_main_v8 val_main_cst_0 val_main_v7 val_main_cst
    val_main_v6 val_main_v5 val_main_v4 val_main_v3 val_main_v2 val_main_v1 val_main_v0
  rfl

/-! ## Region 0 and the first layer's aggregation -/

/-- Region 0's result is the reference's first projection. -/
theorem W2_v29 : (Frame.W2 (F := Ideal) m c main_v29 : FVec Ideal S100000x64 .f32)
    = Cert.ReferenceIdeal.Read.val_main_v29 (F := Ideal) (m ((c.tc : Thread nD τ).loc main_arg0)) (m ((c.tc : Thread nD τ).loc main_arg3)) := by
  have h := Frame.W2_arr (F := Ideal) m c 2
  have ha := arr0 (Frame.V1 (F := Ideal) m) c
  have h0 : Frame.V1 (F := Ideal) m c main_arg0 = m ((c.tc : Thread nD τ).loc main_arg0) := Frame.W1_of m c main_arg0 (by decide)
  have h3 : Frame.V1 (F := Ideal) m c main_arg3 = m ((c.tc : Thread nD τ).loc main_arg3) := Frame.W1_of m c main_arg3 (by decide)
  rw [h0, h3] at ha
  exact h.trans ha

/-- Region 0 leaves the edge lists and weights as they were. -/
theorem W2_v3 : (Frame.W2 (F := Ideal) m c main_v3 : Vec Ideal S1700000 .i32)
    = Cert.ReferenceIdeal.Read.val_main_v3 (F := Ideal) (m ((c.tc : Thread nD τ).loc main_arg1)) :=
  (Frame.W2_of_ne m c main_v3 (by decide)).trans (W1_v3 m c)
theorem W2_v6 : (Frame.W2 (F := Ideal) m c main_v6 : Vec Ideal S1700000 .i32)
    = Cert.ReferenceIdeal.Read.val_main_v6 (F := Ideal) (m ((c.tc : Thread nD τ).loc main_arg1)) :=
  (Frame.W2_of_ne m c main_v6 (by decide)).trans (W1_v6 m c)
theorem W2_v28 : (Frame.W2 (F := Ideal) m c main_v28 : FVec Ideal S1700000 .f32)
    = Cert.ReferenceIdeal.Read.val_main_v28 (F := Ideal) (m ((c.tc : Thread nD τ).loc main_arg1)) :=
  (Frame.W2_of_ne m c main_v28 (by decide)).trans (W1_v28 m c)

/-- A buffer that neither the first stretch nor region 0 writes holds its launch contents at region 0's exit. -/
theorem W2_arg (r : Ref sig .tc) (h1 : r ∉ hostOps0_W) (h2 : ∀ w, Pipeline.arrRef spec0 w ≠ r) :
    Frame.W2 (F := Ideal) m c r = m ((c.tc : Thread nD τ).loc r) :=
  (Frame.W2_of_ne m c r h2).trans (Frame.W1_of m c r h1)

open Cert.ReferenceIdeal.Read in
/-- The first layer before its rectifier: gather the projected rows by source, scale by the edge weights, accumulate
    by destination, add the bias. -/
theorem W3_v45 : (Frame.W3 (F := Ideal) m c main_v45 : FVec Ideal S100000x64 .f32)
    = Cert.ReferenceIdeal.Read.val_main_v45 (F := Ideal) (m ((c.tc : Thread nD τ).loc main_arg0)) (m ((c.tc : Thread nD τ).loc main_arg1)) (m ((c.tc : Thread nD τ).loc main_arg3)) (m ((c.tc : Thread nD τ).loc main_arg4)) := by
  show StableHlo.after hostOps1 (Frame.W2 m c) (Proc.devRef .tc main_v45) = _
  after_results_simp
  rw [W2_v29, W2_v3, W2_v6, W2_v28, W2_arg m c main_arg4 (by decide) (by decide)]
  unfold val_main_v45 val_main_v44 val_main_v43 val_main_v42 val_main_v41 val_main_v40 val_main_cst_7 val_main_v39 val_main_v38 val_main_v37
    val_main_v36 val_main_v35 val_main_v34 val_main_v33 val_main_v32 val_main_c_6 val_main_v31 val_main_v30 val_main_c_5
  rfl

open Cert.ReferenceIdeal.Read in
/-- The first layer's output: the rectifier. -/
theorem W4_v46 : (Frame.W4 (F := Ideal) m c main_v46 : FVec Ideal S100000x64 .f32)
    = Cert.ReferenceIdeal.Read.val_main_v46 (F := Ideal) (m ((c.tc : Thread nD τ).loc main_arg0)) (m ((c.tc : Thread nD τ).loc main_arg1)) (m ((c.tc : Thread nD τ).loc main_arg3)) (m ((c.tc : Thread nD τ).loc main_arg4)) := by
  show StableHlo.after hostOps1_1 (Frame.W3 m c) (Proc.devRef .tc main_v46) = _
  have h45 := W3_v45 m c
  generalize Frame.W3 (F := Ideal) m c = V at h45 ⊢
  after_results
  show maximumf (V (Proc.devRef .tc main_v45) : FVec Ideal S100000x64 .f32)
      (broadcastInDim S100000x64 ![] bcast_S_S100000x64 (constant (F := Ideal) S_ .f32 0x00000000#32)) = _
  rw [h45]
  unfold val_main_v46 val_main_call0_v0 val_main_call0_cst
  rfl

/-- A buffer that the stretches between region 0's exit and region 1's exit leave alone. -/
theorem W5_carry (r : Ref sig .tc) (h3 : r ∉ hostOps1_W) (h4 : r ∉ hostOps1_1_W) (h5 : ∀ w, Pipeline.arrRef spec1 w ≠ r) :
    Frame.W5 (F := Ideal) m c r = Frame.W2 (F := Ideal) m c r :=
  (Frame.W5_of_ne m c r h5).trans ((Frame.W4_of m c r h4).trans (Frame.W3_of m c r h3))
theorem W4_carry (r : Ref sig .tc) (h3 : r ∉ hostOps1_W) (h4 : r ∉ hostOps1_1_W) :
    Frame.W4 (F := Ideal) m c r = Frame.W2 (F := Ideal) m c r :=
  (Frame.W4_of m c r h4).trans (Frame.W3_of m c r h3)

/-! ## Region 1 and the second layer's aggregation -/

/-- Region 1's result is the reference's second projection. -/
theorem W5_v47 : (Frame.W5 (F := Ideal) m c main_v47 : FVec Ideal S100000x64 .f32)
    = Cert.ReferenceIdeal.Read.val_main_v47 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  have h := Frame.W5_arr (F := Ideal) m c 2
  have ha := arr1 (Frame.V4 (F := Ideal) m) c
  have h46 : Frame.V4 (F := Ideal) m c main_v46 = _ := W4_v46 m c
  have h5 : Frame.V4 (F := Ideal) m c main_arg5 = m ((c.tc : Thread nD τ).loc main_arg5) :=
    (W4_carry m c main_arg5 (by decide) (by decide)).trans (W2_arg m c main_arg5 (by decide) (by decide))
  rw [h46, h5] at ha
  exact h.trans ha

theorem W5_v3 : (Frame.W5 (F := Ideal) m c main_v3 : Vec Ideal S1700000 .i32)
    = Cert.ReferenceIdeal.Read.val_main_v3 (F := Ideal) (m ((c.tc : Thread nD τ).loc main_arg1)) :=
  (W5_carry m c main_v3 (by decide) (by decide) (by decide)).trans (W2_v3 m c)
theorem W5_v6 : (Frame.W5 (F := Ideal) m c main_v6 : Vec Ideal S1700000 .i32)
    = Cert.ReferenceIdeal.Read.val_main_v6 (F := Ideal) (m ((c.tc : Thread nD τ).loc main_arg1)) :=
  (W5_carry m c main_v6 (by decide) (by decide) (by decide)).trans (W2_v6 m c)
theorem W5_v28 : (Frame.W5 (F := Ideal) m c main_v28 : FVec Ideal S1700000 .f32)
    = Cert.ReferenceIdeal.Read.val_main_v28 (F := Ideal) (m ((c.tc : Thread nD τ).loc main_arg1)) :=
  (W5_carry m c main_v28 (by decide) (by decide) (by decide)).trans (W2_v28 m c)
theorem W5_arg (r : Ref sig .tc) (h1 : r ∉ hostOps0_W) (h2 : ∀ w, Pipeline.arrRef spec0 w ≠ r)
    (h3 : r ∉ hostOps1_W) (h4 : r ∉ hostOps1_1_W) (h5 : ∀ w, Pipeline.arrRef spec1 w ≠ r) :
    Frame.W5 (F := Ideal) m c r = m ((c.tc : Thread nD τ).loc r) :=
  (W5_carry m c r h3 h4 h5).trans (W2_arg m c r h1 h2)

open Cert.ReferenceIdeal.Read in
/-- The second layer before its rectifier. -/
theorem W6_v63 : (Frame.W6 (F := Ideal) m c main_v63 : FVec Ideal S100000x64 .f32)
    = Cert.ReferenceIdeal.Read.val_main_v63 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show StableHlo.after hostOps2 (Frame.W5 m c) (Proc.devRef .tc main_v63) = _
  after_results_simp
  rw [W5_v47, W5_v3, W5_v6, W5_v28, W5_arg m c main_arg6 (by decide) (by decide) (by decide) (by decide) (by decide)]
  unfold val_main_v63 val_main_v62 val_main_v61 val_main_v60 val_main_v59 val_main_v58 val_main_cst_10 val_main_v57 val_main_v56 val_main_v55
    val_main_v54 val_main_v53 val_main_v52 val_main_v51 val_main_v50 val_main_c_9 val_main_v49 val_main_v48 val_main_c_8
  rfl

open Cert.ReferenceIdeal.Read in
/-- The second layer's output: the rectifier. -/
theorem W7_v64 : (Frame.W7 (F := Ideal) m c main_v64 : FVec Ideal S100000x64 .f32)
    = Cert.ReferenceIdeal.Read.val_main_v64 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show StableHlo.after hostOps2_1 (Frame.W6 m c) (Proc.devRef .tc main_v64) = _
  have h63 := W6_v63 m c
  generalize Frame.W6 (F := Ideal) m c = V at h63 ⊢
  after_results
  show maximumf (V (Proc.devRef .tc main_v63) : FVec Ideal S100000x64 .f32)
      (broadcastInDim S100000x64 ![] bcast_S_S100000x64 (constant (F := Ideal) S_ .f32 0x00000000#32)) = _
  rw [h63]
  unfold val_main_v64 val_main_call1_v0 val_main_call1_cst
  rfl

/-- A buffer that the stretches between region 1's exit and region 2's exit leave alone. -/
theorem W7_carry (r : Ref sig .tc) (h6 : r ∉ hostOps2_W) (h7 : r ∉ hostOps2_1_W) :
    Frame.W7 (F := Ideal) m c r = Frame.W5 (F := Ideal) m c r :=
  (Frame.W7_of m c r h7).trans (Frame.W6_of m c r h6)
theorem W8_carry (r : Ref sig .tc) (h6 : r ∉ hostOps2_W) (h7 : r ∉ hostOps2_1_W) (h8 : ∀ w, Pipeline.arrRef spec2 w ≠ r) :
    Frame.W8 (F := Ideal) m c r = Frame.W5 (F := Ideal) m c r :=
  (Frame.W8_of_ne m c r h8).trans (W7_carry m c r h6 h7)

/-! ## Region 2 and the third layer's aggregation -/

/-- Region 2's result is the reference's third projection. -/
theorem W8_v65 : (Frame.W8 (F := Ideal) m c main_v65 : FVec Ideal S100000x64 .f32)
    = Cert.ReferenceIdeal.Read.val_main_v65 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h := Frame.W8_arr (F := Ideal) m c 2
  have ha := arr2 (Frame.V7 (F := Ideal) m) c
  have h64 : Frame.V7 (F := Ideal) m c main_v64 = _ := W7_v64 m c
  have h7 : Frame.V7 (F := Ideal) m c main_arg7 = m ((c.tc : Thread nD τ).loc main_arg7) :=
    (W7_carry m c main_arg7 (by decide) (by decide)).trans
      (W5_arg m c main_arg7 (by decide) (by decide) (by decide) (by decide) (by decide))
  rw [h64, h7] at ha
  exact h.trans ha

theorem W8_v3 : (Frame.W8 (F := Ideal) m c main_v3 : Vec Ideal S1700000 .i32)
    = Cert.ReferenceIdeal.Read.val_main_v3 (F := Ideal) (m ((c.tc : Thread nD τ).loc main_arg1)) :=
  (W8_carry m c main_v3 (by decide) (by decide) (by decide)).trans (W5_v3 m c)
theorem W8_v6 : (Frame.W8 (F := Ideal) m c main_v6 : Vec Ideal S1700000 .i32)
    = Cert.ReferenceIdeal.Read.val_main_v6 (F := Ideal) (m ((c.tc : Thread nD τ).loc main_arg1)) :=
  (W8_carry m c main_v6 (by decide) (by decide) (by decide)).trans (W5_v6 m c)
theorem W8_v28 : (Frame.W8 (F := Ideal) m c main_v28 : FVec Ideal S1700000 .f32)
    = Cert.ReferenceIdeal.Read.val_main_v28 (F := Ideal) (m ((c.tc : Thread nD τ).loc main_arg1)) :=
  (W8_carry m c main_v28 (by decide) (by decide) (by decide)).trans (W5_v28 m c)
theorem W8_arg (r : Ref sig .tc) (h1 : r ∉ hostOps0_W) (h2 : ∀ w, Pipeline.arrRef spec0 w ≠ r)
    (h3 : r ∉ hostOps1_W) (h4 : r ∉ hostOps1_1_W) (h5 : ∀ w, Pipeline.arrRef spec1 w ≠ r)
    (h6 : r ∉ hostOps2_W) (h7 : r ∉ hostOps2_1_W) (h8 : ∀ w, Pipeline.arrRef spec2 w ≠ r) :
    Frame.W8 (F := Ideal) m c r = m ((c.tc : Thread nD τ).loc r) :=
  (W8_carry m c r h6 h7 h8).trans (W5_arg m c r h1 h2 h3 h4 h5)

/-! ## The last stretch: region 3's entry -/

open Cert.ReferenceIdeal.Read in
/-- At region 3's entry the rows are the reference's third layer output of the same arguments. -/
theorem s_v81 : (Frame.W9 (F := Ideal) m c main_v81 : FVec Ideal S100000x64 .f32)
    = Cert.ReferenceIdeal.Read.val_main_v81 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps3 (Frame.W8 m c) (Proc.devRef .tc main_v81) = _
  after_results_simp
  rw [W8_v65, W8_v3, W8_v6, W8_v28, W8_arg m c main_arg8 (by decide) (by decide) (by decide) (by decide) (by decide) (by decide) (by decide) (by decide)]
  unfold val_main_v81 val_main_v80 val_main_v79 val_main_v78 val_main_v77 val_main_v76 val_main_cst_13 val_main_v75 val_main_v74 val_main_v73
    val_main_v72 val_main_v71 val_main_v70 val_main_v69 val_main_v68 val_main_c_12 val_main_v67 val_main_v66 val_main_c_11
  rfl

/-- The graph ids as a column: entry `(n, 0)` is argument 2's entry `n`. -/
theorem s_v82 (n : Fin 100000) : (Frame.W9 (F := Ideal) m c main_v82 : Vec Ideal S100000x1 .i32) (ix2 n (0 : Fin 1))
    = (m ((c.tc : Thread nD τ).loc main_arg2) : Vec Ideal S100000 .i32) (ix1 n) := by
  show StableHlo.after hostOps3 (Frame.W8 m c) (Proc.devRef .tc main_v82) (ix2 n (0 : Fin 1)) = _
  after_results
  rw [W8_arg m c main_arg2 (by decide) (by decide) (by decide) (by decide) (by decide) (by decide) (by decide) (by decide)]
  show shapeCast S100000x1 (m ((c.tc : Thread nD τ).loc main_arg2) : Vec Ideal S100000 .i32) shapeCasts_S100000_S100000x1 (ix2 n (0 : Fin 1)) = _
  exact shapeCast_apply _ shapeCasts_S100000_S100000x1 (ix2 n (0 : Fin 1)) (ix1 n)
    (by rw [Shape.rowMajor_val_two, Shape.rowMajor_val_one]; show n.val = n.val * 1 + 0; omega)

/-- The bias as a 1 x 1 matrix. -/
theorem s_v83 : (Frame.W9 (F := Ideal) m c main_v83 : FVec Ideal S1x1 .f32) (ix2 (0 : Fin 1) (0 : Fin 1))
    = (m ((c.tc : Thread nD τ).loc main_arg10) : FVec Ideal S1 .f32) (ix1 (0 : Fin 1)) := by
  show StableHlo.after hostOps3 (Frame.W8 m c) (Proc.devRef .tc main_v83) (ix2 (0 : Fin 1) (0 : Fin 1)) = _
  after_results
  rw [W8_arg m c main_arg10 (by decide) (by decide) (by decide) (by decide) (by decide) (by decide) (by decide) (by decide)]
  show shapeCast S1x1 (m ((c.tc : Thread nD τ).loc main_arg10) : FVec Ideal S1 .f32) shapeCasts_S1_S1x1 (ix2 (0 : Fin 1) (0 : Fin 1)) = _
  exact shapeCast_apply _ shapeCasts_S1_S1x1 (ix2 (0 : Fin 1) (0 : Fin 1)) (ix1 (0 : Fin 1))
    (by rw [Shape.rowMajor_val_two, Shape.rowMajor_val_one]; rfl)

/-- The weights are the argument itself. -/
theorem s_arg9 : Frame.W9 (F := Ideal) m c main_arg9 = m ((c.tc : Thread nD τ).loc main_arg9) :=
  (Frame.W9_of m c main_arg9 (by decide)).trans (W8_arg m c main_arg9 (by decide) (by decide) (by decide) (by decide) (by decide) (by decide) (by decide) (by decide))

end Cert.KernelIdeal.Val

end
-- ==== Proof.Val.PoolSpec.lean ====
/-
  Mean pooling over graph ids followed by a linear layer, as one index-by-index function on the extended reals.
  Row `n` of the 100000 rows belongs to graph `g` when its id word is the word of `g`; ids outside 0 … 511 belong to
  no graph. For graph `g`: the sum over its rows of each of the 64 columns, divided by the number of its rows (at least
  one), then the inner product with the layer's 64 weights, plus the bias.
-/
import Idealize.ShloMosaic.PureOps.Ideal
import Idealize.ShloMosaic.Lib.ValueIdx

noncomputable section

namespace Cert.PoolSpec

open Idealize.ShloMosaic Idealize.ShloMosaic.ValueIdx

/-- The one-hot entry of a row's id word against graph `g`: one when the word is `g`'s, zero otherwise. -/
def hot (w : BitVec 32) (g : Fin 512) : EReal := if w = BitVec.ofNat 32 g.val then 1 else 0

/-- Column `k` summed over the rows of graph `g`. -/
def segSum (ids : (⟨2, ![100000, 1]⟩ : Shape).Idx → BitVec 32) (h : (⟨2, ![100000, 64]⟩ : Shape).Idx → EReal)
    (k : Fin 64) (g : Fin 512) : EReal :=
  ∑ n : Fin 100000, h (ix2 n k) * hot (ids (ix2 n (0 : Fin 1))) g

/-- The number of rows of graph `g`. -/
def segCnt (ids : (⟨2, ![100000, 1]⟩ : Shape).Idx → BitVec 32) (g : Fin 512) : EReal :=
  ∑ n : Fin 100000, hot (ids (ix2 n (0 : Fin 1))) g

/-- The pooled and projected value of graph `g`. -/
def poolAt (ids : (⟨2, ![100000, 1]⟩ : Shape).Idx → BitVec 32) (h : (⟨2, ![100000, 64]⟩ : Shape).Idx → EReal)
    (lw : (⟨2, ![1, 64]⟩ : Shape).Idx → EReal) (lb : (⟨2, ![1, 1]⟩ : Shape).Idx → EReal) (g : Fin 512) : EReal :=
  (∑ k : Fin 64, lw (ix2 (0 : Fin 1) k) * Ideal.div (segSum ids h k g) (max (segCnt ids g) 1)) + lb (ix2 (0 : Fin 1) (0 : Fin 1))

/-- The whole result, 512 x 1. -/
def poolSpec (ids : (⟨2, ![100000, 1]⟩ : Shape).Idx → BitVec 32) (h : (⟨2, ![100000, 64]⟩ : Shape).Idx → EReal)
    (lw : (⟨2, ![1, 64]⟩ : Shape).Idx → EReal) (lb : (⟨2, ![1, 1]⟩ : Shape).Idx → EReal) :
    (⟨2, ![512, 1]⟩ : Shape).Idx → EReal :=
  fun i => poolAt ids h lw lb ⟨(i 0).val, (i 0).isLt⟩

end Cert.PoolSpec

end
-- ==== Proof.Val.PoolK1.lean ====
/-
  Region 3's six payloads read at an index, at the extended reals. The block's one-hot matrix has at (r, g) the
  one-hot entry of row r's id word against graph g; the two carried matrices gain, at each point, the block's rows
  (or the constant one) summed against that matrix over the block's 1000 rows; the stored result is, for graph g, the
  inner product of the weights with the column sums over the count (at least one), plus the bias.
-/
import proofs.«409805_j12120397709999_1_alg».proof.Proof.Gen.KernelIdeal.Skeleton
import proofs.«409805_j12120397709999_1_alg».proof.Proof.Val.PoolSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.PoolK

open Cert.KernelIdeal Cert.KernelIdeal.Gen
open Idealize.ShloMosaic Idealize.ShloMosaic.ValueIdx
open Cert.PoolSpec (hot)

/-! ## Layout operations the library does not read at an index -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## The two constants -/

/-- The bf16 word `0x3F80` is one. -/
theorem ofBits_one_bf16 : Ideal.ofBits .bf16 0x3F80#16 = 1 := by
  simp [Ideal.ofBits, Ideal.ieee, -EReal.coe_mul]; norm_num

/-- The f32 word `0x3F800000` is one. -/
theorem ofBits_one_f32 : Ideal.ofBits .f32 0x3F800000#32 = 1 := by
  simp [Ideal.ofBits, Ideal.ieee, -EReal.coe_mul]; norm_num

/-! ## The one-hot matrix of a block of ids -/

/-- A one-bit word widened and read as a signed integer, as an extended real: one or zero. -/
theorem hot_word (w v : BitVec 32) :
    ((((IntOp.cmpi .eq w v).setWidth 32).toInt : ℝ) : EReal) = if w = v then 1 else 0 := by
  unfold IntOp.cmpi
  by_cases h : w = v
  · subst h; simp
  · rw [if_neg h]
    have : (w == v) = false := by simpa using h
    simp [this]

/-- The one-hot matrix at row `r`, graph `g`. -/
theorem pay3_apply (x3 : Vec Ideal S1000x1 .i32) (r : Fin 1000) (g : Fin 512) :
    k3_pay3 (F := Ideal) x3 (ix2 r g) = hot (x3 (ix2 r (0 : Fin 1))) g := by
  unfold k3_pay3
  dsimp only
  show ((((IntOp.cmpi .eq (broadcastTo S1000x512 (shapeCast S1000x1 x3 Facts₀.shapeCasts_S1000x1_S1000x1) Facts₀.broadcasts_S1000x1_S1000x512 (ix2 r g))
      (iota .tc S1000x512 32 [1] Facts₀.iota_S1000x512_d1_w32 (ix2 r g))).setWidth 32).toInt : ℝ) : EReal) = _
  rw [broadcastTo_a1_ab_apply, shapeCast_self, iota_single_apply, hot_word]
  rfl

/-! ## The block's rows against the one-hot matrix: contraction over the block's 1000 rows -/

theorem lhs_rows_0 (i : S64x512.Idx) (q : dot_S1000x64_S1000x512_S64x512_0_0_1_1_n_n.contr.Idx) :
    (dot_S1000x64_S1000x512_S64x512_0_0_1_1_n_n.lhsIdx i q 0).val = (q ⟨0, by decide⟩).val :=
  dot_S1000x64_S1000x512_S64x512_0_0_1_1_n_n.lhsIdx_val_of_single rfl i q
theorem lhs_rows_1 (i : S64x512.Idx) (q : dot_S1000x64_S1000x512_S64x512_0_0_1_1_n_n.contr.Idx) :
    (dot_S1000x64_S1000x512_S64x512_0_0_1_1_n_n.lhsIdx i q 1).val = (i 0).val := by
  unfold DotDims.lhsIdx
  rw [dif_neg (show ¬(1 : Fin S1000x64.rank) ∈ dot_S1000x64_S1000x512_S64x512_0_0_1_1_n_n.lhsBatch by decide), dif_pos (show (1 : Fin S1000x64.rank) ∈ dot_S1000x64_S1000x512_S64x512_0_0_1_1_n_n.lhsNonContracting by decide)]
  rfl
theorem rhs_rows_0 (i : S64x512.Idx) (q : dot_S1000x64_S1000x512_S64x512_0_0_1_1_n_n.contr.Idx) :
    (dot_S1000x64_S1000x512_S64x512_0_0_1_1_n_n.rhsIdx i q 0).val = (q ⟨0, by decide⟩).val :=
  dot_S1000x64_S1000x512_S64x512_0_0_1_1_n_n.rhsIdx_val_of_single rfl i q
theorem rhs_rows_1 (i : S64x512.Idx) (q : dot_S1000x64_S1000x512_S64x512_0_0_1_1_n_n.contr.Idx) :
    (dot_S1000x64_S1000x512_S64x512_0_0_1_1_n_n.rhsIdx i q 1).val = (i 1).val := by
  unfold DotDims.rhsIdx
  rw [dif_neg (show ¬(1 : Fin S1000x512.rank) ∈ dot_S1000x64_S1000x512_S64x512_0_0_1_1_n_n.rhsBatch by decide), dif_pos (show (1 : Fin S1000x512.rank) ∈ dot_S1000x64_S1000x512_S64x512_0_0_1_1_n_n.rhsNonContracting by decide)]
  rfl

/-- The product that contracts the ROW axis of both operands, into the zero matrix: at `(k, g)` the sum over the
    1000 rows of the left operand's column `k` times the right operand's column `g`. -/
theorem matmul_rows_apply (L : FVec Ideal S1000x64 .bf16) (R : FVec Ideal S1000x512 .bf16) (k : Fin 64) (g : Fin 512) :
    FloatOps.matmul dot_S1000x64_S1000x512_S64x512_0_0_1_1_n_n none L R (constant (F := Ideal) S64x512 .f32 0x00000000#32) (ix2 k g)
      = ∑ r : Fin 1000, L (ix2 r k) * R (ix2 r g) := by
  rw [Ideal.matmul_constant_zero_apply, ← Equiv.sum_comp (ValueIdx.contrEquiv1 dot_S1000x64_S1000x512_S64x512_0_0_1_1_n_n 1000 rfl rfl).symm]
  refine Finset.sum_congr rfl fun r _ => ?_
  have hr := ValueIdx.contrEquiv1_symm_val dot_S1000x64_S1000x512_S64x512_0_0_1_1_n_n 1000 rfl rfl r
  have el : dot_S1000x64_S1000x512_S64x512_0_0_1_1_n_n.lhsIdx (ix2 k g) ((ValueIdx.contrEquiv1 dot_S1000x64_S1000x512_S64x512_0_0_1_1_n_n 1000 rfl rfl).symm r) = ix2 r k := funext fun a => Fin.ext (by
    match a with
    | ⟨0, _⟩ => exact (lhs_rows_0 _ _).trans hr
    | ⟨1, _⟩ => exact lhs_rows_1 _ _)
  have er : dot_S1000x64_S1000x512_S64x512_0_0_1_1_n_n.rhsIdx (ix2 k g) ((ValueIdx.contrEquiv1 dot_S1000x64_S1000x512_S64x512_0_0_1_1_n_n 1000 rfl rfl).symm r) = ix2 r g := funext fun a => Fin.ext (by
    match a with
    | ⟨0, _⟩ => exact (rhs_rows_0 _ _).trans hr
    | ⟨1, _⟩ => exact rhs_rows_1 _ _)
  rw [el, er]

/-- The carried sums after a point: what they were plus, at `(k, g)`, the block's column `k` summed over the rows whose
    id is `g`. -/
theorem pay4_apply (x3 : Vec Ideal S1000x1 .i32) (x11 : FVec Ideal S1000x64 .f32) (s : FVec Ideal S64x512 .f32)
    (k : Fin 64) (g : Fin 512) :
    k3_pay4 (F := Ideal) x3 x11 s (ix2 k g)
      = s (ix2 k g) + ∑ r : Fin 1000, x11 (ix2 r k) * hot (x3 (ix2 r (0 : Fin 1))) g := by
  unfold k3_pay4
  rw [shapeCast_self, shapeCast_self]
  show s (ix2 k g) + FloatOps.matmul dot_S1000x64_S1000x512_S64x512_0_0_1_1_n_n none (truncf .bf16 x11 Facts₀.bitsLt_bf16_f32) (k3_pay3 (F := Ideal) x3)
      (constant (F := Ideal) S64x512 .f32 0x00000000#32) (ix2 k g) = _
  rw [matmul_rows_apply]
  refine congrArg (s (ix2 k g) + ·) (Finset.sum_congr rfl fun r _ => ?_)
  rw [pay3_apply]
  rfl

/-! ## The constant one against the one-hot matrix: the block's row counts -/

theorem rhs_ones_0 (i : S1x512.Idx) (q : dot_S1000x1_S1000x512_S1x512_0_0_1_1_n_n.contr.Idx) :
    (dot_S1000x1_S1000x512_S1x512_0_0_1_1_n_n.rhsIdx i q 0).val = (q ⟨0, by decide⟩).val :=
  dot_S1000x1_S1000x512_S1x512_0_0_1_1_n_n.rhsIdx_val_of_single rfl i q
theorem rhs_ones_1 (i : S1x512.Idx) (q : dot_S1000x1_S1000x512_S1x512_0_0_1_1_n_n.contr.Idx) :
    (dot_S1000x1_S1000x512_S1x512_0_0_1_1_n_n.rhsIdx i q 1).val = (i 1).val := by
  unfold DotDims.rhsIdx
  rw [dif_neg (show ¬(1 : Fin S1000x512.rank) ∈ dot_S1000x1_S1000x512_S1x512_0_0_1_1_n_n.rhsBatch by decide), dif_pos (show (1 : Fin S1000x512.rank) ∈ dot_S1000x1_S1000x512_S1x512_0_0_1_1_n_n.rhsNonContracting by decide)]
  rfl

/-- A constant column against a matrix, contracting the row axis of both, into the zero row: at `(0, g)` the sum
    over the 1000 rows of the constant times the matrix's column `g`. -/
theorem matmul_ones_apply (e : Ideal .bf16) (R : FVec Ideal S1000x512 .bf16) (g : Fin 512) :
    FloatOps.matmul dot_S1000x1_S1000x512_S1x512_0_0_1_1_n_n none (broadcast S1000x1 e) R (constant (F := Ideal) S1x512 .f32 0x00000000#32) (ix2 (0 : Fin 1) g)
      = ∑ r : Fin 1000, e * R (ix2 r g) := by
  rw [Ideal.matmul_constant_zero_apply, ← Equiv.sum_comp (ValueIdx.contrEquiv1 dot_S1000x1_S1000x512_S1x512_0_0_1_1_n_n 1000 rfl rfl).symm]
  refine Finset.sum_congr rfl fun r _ => ?_
  have hr := ValueIdx.contrEquiv1_symm_val dot_S1000x1_S1000x512_S1x512_0_0_1_1_n_n 1000 rfl rfl r
  have er : dot_S1000x1_S1000x512_S1x512_0_0_1_1_n_n.rhsIdx (ix2 (0 : Fin 1) g) ((ValueIdx.contrEquiv1 dot_S1000x1_S1000x512_S1x512_0_0_1_1_n_n 1000 rfl rfl).symm r) = ix2 r g := funext fun a => Fin.ext (by
    match a with
    | ⟨0, _⟩ => exact (rhs_ones_0 _ _).trans hr
    | ⟨1, _⟩ => exact rhs_ones_1 _ _)
  rw [er]
  rfl

/-- The carried counts after a point: what they were plus, at graph `g`, the number of the block's rows whose id is `g`. -/
theorem pay5_apply (x3 : Vec Ideal S1000x1 .i32) (s : FVec Ideal S1x512 .f32) (g : Fin 512) :
    k3_pay5 (F := Ideal) x3 s (ix2 (0 : Fin 1) g)
      = s (ix2 (0 : Fin 1) g) + ∑ r : Fin 1000, hot (x3 (ix2 r (0 : Fin 1))) g := by
  unfold k3_pay5
  rw [shapeCast_self]
  show s (ix2 (0 : Fin 1) g) + FloatOps.matmul dot_S1000x1_S1000x512_S1x512_0_0_1_1_n_n none (broadcast S1000x1 (Ideal.ofBits .bf16 0x3F80#16)) (k3_pay3 (F := Ideal) x3)
      (constant (F := Ideal) S1x512 .f32 0x00000000#32) (ix2 (0 : Fin 1) g) = _
  rw [matmul_ones_apply]
  refine congrArg (s (ix2 (0 : Fin 1) g) + ·) (Finset.sum_congr rfl fun r _ => ?_)
  rw [pay3_apply, ofBits_one_bf16, one_mul]

/-! ## The two zero matrices -/

theorem pay1_apply (j : S64x512.Idx) : k3_pay1 (F := Ideal) j = 0 := by
  unfold k3_pay1
  rw [shapeCast_self]
  exact Ideal.ofBits_zero_f32

theorem pay2_apply (j : S1x512.Idx) : k3_pay2 (F := Ideal) j = 0 := by
  unfold k3_pay2
  rw [shapeCast_self]
  exact Ideal.ofBits_zero_f32

/-! ## The linear head: contraction over the 64 columns -/

theorem lhs_head_0 (i : S1x512.Idx) (q : dot_S1x64_S64x512_S1x512_1_0_0_1_n_n.contr.Idx) :
    (dot_S1x64_S64x512_S1x512_1_0_0_1_n_n.lhsIdx i q 0).val = (i 0).val := by
  unfold DotDims.lhsIdx
  rw [dif_neg (show ¬(0 : Fin S1x64.rank) ∈ dot_S1x64_S64x512_S1x512_1_0_0_1_n_n.lhsBatch by decide), dif_pos (show (0 : Fin S1x64.rank) ∈ dot_S1x64_S64x512_S1x512_1_0_0_1_n_n.lhsNonContracting by decide)]
  rfl
theorem lhs_head_1 (i : S1x512.Idx) (q : dot_S1x64_S64x512_S1x512_1_0_0_1_n_n.contr.Idx) :
    (dot_S1x64_S64x512_S1x512_1_0_0_1_n_n.lhsIdx i q 1).val = (q ⟨0, by decide⟩).val :=
  dot_S1x64_S64x512_S1x512_1_0_0_1_n_n.lhsIdx_val_of_single rfl i q
theorem rhs_head_0 (i : S1x512.Idx) (q : dot_S1x64_S64x512_S1x512_1_0_0_1_n_n.contr.Idx) :
    (dot_S1x64_S64x512_S1x512_1_0_0_1_n_n.rhsIdx i q 0).val = (q ⟨0, by decide⟩).val :=
  dot_S1x64_S64x512_S1x512_1_0_0_1_n_n.rhsIdx_val_of_single rfl i q
theorem rhs_head_1 (i : S1x512.Idx) (q : dot_S1x64_S64x512_S1x512_1_0_0_1_n_n.contr.Idx) :
    (dot_S1x64_S64x512_S1x512_1_0_0_1_n_n.rhsIdx i q 1).val = (i 1).val := by
  unfold DotDims.rhsIdx
  rw [dif_neg (show ¬(1 : Fin S64x512.rank) ∈ dot_S1x64_S64x512_S1x512_1_0_0_1_n_n.rhsBatch by decide), dif_pos (show (1 : Fin S64x512.rank) ∈ dot_S1x64_S64x512_S1x512_1_0_0_1_n_n.rhsNonContracting by decide)]
  rfl

/-- A row of 64 weights against a 64 x 512 matrix, into the zero row: at `(0, g)` the inner product of the weights
    with the matrix's column `g`. -/
theorem matmul_head_apply (L : FVec Ideal S1x64 .bf16) (R : FVec Ideal S64x512 .bf16) (g : Fin 512) :
    FloatOps.matmul dot_S1x64_S64x512_S1x512_1_0_0_1_n_n none L R (constant (F := Ideal) S1x512 .f32 0x00000000#32) (ix2 (0 : Fin 1) g)
      = ∑ k : Fin 64, L (ix2 (0 : Fin 1) k) * R (ix2 k g) := by
  rw [Ideal.matmul_constant_zero_apply, ← Equiv.sum_comp (ValueIdx.contrEquiv1 dot_S1x64_S64x512_S1x512_1_0_0_1_n_n 64 rfl rfl).symm]
  refine Finset.sum_congr rfl fun k _ => ?_
  have hk := ValueIdx.contrEquiv1_symm_val dot_S1x64_S64x512_S1x512_1_0_0_1_n_n 64 rfl rfl k
  have el : dot_S1x64_S64x512_S1x512_1_0_0_1_n_n.lhsIdx (ix2 (0 : Fin 1) g) ((ValueIdx.contrEquiv1 dot_S1x64_S64x512_S1x512_1_0_0_1_n_n 64 rfl rfl).symm k) = ix2 (0 : Fin 1) k := funext fun a => Fin.ext (by
    match a with
    | ⟨0, _⟩ => exact lhs_head_0 _ _
    | ⟨1, _⟩ => exact (lhs_head_1 _ _).trans hk)
  have er : dot_S1x64_S64x512_S1x512_1_0_0_1_n_n.rhsIdx (ix2 (0 : Fin 1) g) ((ValueIdx.contrEquiv1 dot_S1x64_S64x512_S1x512_1_0_0_1_n_n 64 rfl rfl).symm k) = ix2 k g := funext fun a => Fin.ext (by
    match a with
    | ⟨0, _⟩ => exact (rhs_head_0 _ _).trans hk
    | ⟨1, _⟩ => exact rhs_head_1 _ _)
  rw [el, er]

/-- What the last point stores for graph `g`: the inner product of the weights with the carried column sums over the
    carried count (at least one), plus the bias. -/
theorem pay6_apply (S : FVec Ideal S64x512 .f32) (C : FVec Ideal S1x512 .f32) (lw : FVec Ideal S1x64 .f32)
    (lb : FVec Ideal S1x1 .f32) (g : Fin 512) :
    k3_pay6 (F := Ideal) S C lw lb (ix2 g (0 : Fin 1))
      = (∑ k : Fin 64, lw (ix2 (0 : Fin 1) k) * Ideal.div (S (ix2 k g)) (max (C (ix2 (0 : Fin 1) g)) 1))
        + lb (ix2 (0 : Fin 1) (0 : Fin 1)) := by
  unfold k3_pay6
  dsimp only
  rw [transpose_ix2_apply]
  show FloatOps.matmul dot_S1x64_S64x512_S1x512_1_0_0_1_n_n none (truncf .bf16 lw Facts₀.bitsLt_bf16_f32)
        (truncf .bf16 (divf S (broadcastTo S64x512 (maximumf C (broadcast S1x512 (Ideal.ofBits .f32 0x3F800000#32))) Facts₀.broadcasts_S1x512_S64x512)) Facts₀.bitsLt_bf16_f32)
        (constant (F := Ideal) S1x512 .f32 0x00000000#32) (ix2 (0 : Fin 1) g)
      + broadcastTo S1x512 (shapeCast S1x1 lb Facts₀.shapeCasts_S1x1_S1x1) Facts₀.broadcasts_S1x1_S1x512 (ix2 (0 : Fin 1) g) = _
  rw [matmul_head_apply, broadcastTo_a1_ab_apply, shapeCast_self]
  refine congrArg (· + lb (ix2 (0 : Fin 1) (0 : Fin 1))) (Finset.sum_congr rfl fun k _ => ?_)
  show lw (ix2 (0 : Fin 1) k) * Ideal.div (S (ix2 k g))
      (broadcastTo S64x512 (maximumf C (broadcast S1x512 (Ideal.ofBits .f32 0x3F800000#32))) Facts₀.broadcasts_S1x512_S64x512 (ix2 k g)) = _
  rw [broadcastTo_1b_ab_apply]
  show _ * Ideal.div _ (max (C (ix2 (0 : Fin 1) g)) (Ideal.ofBits .f32 0x3F800000#32)) = _
  rw [ofBits_one_f32]

end Cert.KernelIdeal.Val.PoolK

end
-- ==== Proof.Val.PoolK.lean ====
/-
  Region 3's result array at the extended reals: the one block the last grid point writes back is the whole result, and
  what that point stores is the pooled and projected value of every graph — the running sums the 100 points carry are,
  after the last, the sums over all 100000 rows.
-/
import proofs.«409805_j12120397709999_1_alg».proof.Proof.KI.Pool
import proofs.«409805_j12120397709999_1_alg».proof.Proof.Val.PoolSpec
import proofs.«409805_j12120397709999_1_alg».proof.Proof.Val.PoolK1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val.PoolK

open Cert.KernelIdeal Cert.KernelIdeal.Gen
open Idealize.ShloMosaic Idealize.ShloMosaic.TcCoe Idealize.SL.Sem
open Idealize.ShloMosaic.Pipeline (Dat)
open Idealize.ShloMosaic.ValueIdx
open Cert.PoolSpec (hot segSum segCnt poolAt poolSpec)

/-! ## The 100000 rows as 100 blocks of 1000 -/

/-- Row `r` of block `t` is row `1000 t + r` of the array. -/
def rowOf (t : Fin 100) (r : Fin 1000) : Fin 100000 := ⟨1000 * t.val + r.val, by have := t.isLt; have := r.isLt; omega⟩

/-- The rows are the 100 blocks' rows, once each. -/
def rowEquiv : Fin 100 × Fin 1000 ≃ Fin 100000 :=
  (finProdFinEquiv (m := 100) (n := 1000)).trans (finCongr (by norm_num))

theorem rowEquiv_apply (p : Fin 100 × Fin 1000) : rowEquiv p = rowOf p.1 p.2 :=
  Fin.ext (by
    show ((finProdFinEquiv p : Fin (100 * 1000)) : ℕ) = 1000 * p.1.val + p.2.val
    rw [finProdFinEquiv_apply_val]; omega)

/-- A sum over all rows is the sum over the blocks of the sums over each block's rows. -/
theorem sum_rows {M : Type} [AddCommMonoid M] (f : Fin 100000 → M) :
    ∑ n : Fin 100000, f n = ∑ t : Fin 100, ∑ r : Fin 1000, f (rowOf t r) := by
  rw [← Fintype.sum_prod_type' (f := fun t r => f (rowOf t r))]
  exact (Fintype.sum_equiv rowEquiv _ _ fun p => congrArg f (rowEquiv_apply p).symm).symm

/-- Block `t`'s part of column `k`'s sum for graph `g` (zero past the last block). -/
def blockSum (ids : Vec Ideal S100000x1 .i32) (rows : FVec Ideal S100000x64 .f32) (k : Fin 64) (g : Fin 512) (t : ℕ) : EReal :=
  if h : t < 100 then ∑ r : Fin 1000, rows (ix2 (rowOf ⟨t, h⟩ r) k) * hot (ids (ix2 (rowOf ⟨t, h⟩ r) (0 : Fin 1))) g else 0

/-- Block `t`'s part of graph `g`'s row count (zero past the last block). -/
def blockCnt (ids : Vec Ideal S100000x1 .i32) (g : Fin 512) (t : ℕ) : EReal :=
  if h : t < 100 then ∑ r : Fin 1000, hot (ids (ix2 (rowOf ⟨t, h⟩ r) (0 : Fin 1))) g else 0

/-- All 100 blocks' parts make the column's sum over the graph's rows. -/
theorem sum_blockSum (ids : Vec Ideal S100000x1 .i32) (rows : FVec Ideal S100000x64 .f32) (k : Fin 64) (g : Fin 512) :
    ∑ t ∈ Finset.range 100, blockSum ids rows k g t = segSum ids rows k g := by
  unfold segSum
  rw [sum_rows, ← Fin.sum_univ_eq_sum_range]
  refine Finset.sum_congr rfl fun t _ => ?_
  unfold blockSum
  rw [dif_pos t.isLt]

/-- All 100 blocks' parts make the graph's row count. -/
theorem sum_blockCnt (ids : Vec Ideal S100000x1 .i32) (g : Fin 512) :
    ∑ t ∈ Finset.range 100, blockCnt ids g t = segCnt ids g := by
  unfold segCnt
  rw [sum_rows, ← Fin.sum_univ_eq_sum_range]
  refine Finset.sum_congr rfl fun t _ => ?_
  unfold blockCnt
  rw [dif_pos t.isLt]

/-! ## The region's arrays and blocks, by their literal types -/

variable (V : (c : Dev nD) → (b : Ref sig .tc) → Buf (Elt Ideal) ((c : Thread nD τ).loc b))

/-- The four operand arrays as the region finds them. -/
abbrev idsArr (c : Dev nD) : Vec Ideal S100000x1 .i32 := V c main_v82
abbrev rowsArr (c : Dev nD) : FVec Ideal S100000x64 .f32 := V c main_v81
abbrev wArr (c : Dev nD) : FVec Ideal S1x64 .f32 := V c main_arg9
abbrev bArr (c : Dev nD) : FVec Ideal S1x1 .f32 := V c main_v83

/-- Their blocks at a grid point. -/
abbrev idsBlk (c : Dev nD) (t : Fin cfg3.N) : Vec Ideal S1000x1 .i32 := Frame.iblk3 V c 0 t
abbrev rowsBlk (c : Dev nD) (t : Fin cfg3.N) : FVec Ideal S1000x64 .f32 := Frame.iblk3 V c 1 t
abbrev wBlk (c : Dev nD) (t : Fin cfg3.N) : FVec Ideal S1x64 .f32 := Frame.iblk3 V c 2 t
abbrev bBlk (c : Dev nD) (t : Fin cfg3.N) : FVec Ideal S1x1 .f32 := Frame.iblk3 V c 3 t

theorem hN : cfg3.N = 100 := N_3

/-- The printed index maps, decided over the grid: the ids' and the rows' block index is the point on the row axis;
    the weights', the bias's and the result's is zero. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row `r` of the ids' block at point `t` is row `1000 t + r` of the ids. -/
theorem idsBlk_apply (c : Dev nD) (t : Fin cfg3.N) (ht : t.val < 100) (r : Fin 1000) :
    idsBlk V c t (ix2 r (0 : Fin 1)) = idsArr V c (ix2 (rowOf ⟨t.val, ht⟩ r) (0 : Fin 1)) := by
  obtain ⟨e0, e1, -⟩ := idx_facts t
  show V c main_v82 (((cfg3.win 0).blk t).view.emb (ix2 r (0 : Fin 1))) = V c main_v82 (ix2 (rowOf ⟨t.val, ht⟩ r) (0 : Fin 1))
  refine congrArg (V c main_v82) (funext fun a => Fin.ext ?_)
  match a with
  | ⟨0, _⟩ => show win3_0.index t (0 : Fin 2) * 1000 + 1 * r.val = 1000 * t.val + r.val; rw [e0]; omega
  | ⟨1, _⟩ => show win3_0.index t (1 : Fin 2) * 1 + 1 * 0 = 0; rw [e1]

/-- Row `r` of the rows' block at point `t` is row `1000 t + r` of the rows. -/
theorem rowsBlk_apply (c : Dev nD) (t : Fin cfg3.N) (ht : t.val < 100) (r : Fin 1000) (k : Fin 64) :
    rowsBlk V c t (ix2 r k) = rowsArr V c (ix2 (rowOf ⟨t.val, ht⟩ r) k) := by
  obtain ⟨-, -, e2, e3, -⟩ := idx_facts t
  show V c main_v81 (((cfg3.win 1).blk t).view.emb (ix2 r k)) = V c main_v81 (ix2 (rowOf ⟨t.val, ht⟩ r) k)
  refine congrArg (V c main_v81) (funext fun a => Fin.ext ?_)
  match a with
  | ⟨0, _⟩ => show win3_1.index t (0 : Fin 2) * 1000 + 1 * r.val = 1000 * t.val + r.val; rw [e2]; omega
  | ⟨1, _⟩ => show win3_1.index t (1 : Fin 2) * 64 + 1 * k.val = k.val; rw [e3]; omega

/-- The weights' block is the weights. -/
theorem wBlk_apply (c : Dev nD) (t : Fin cfg3.N) (k : Fin 64) :
    wBlk V c t (ix2 (0 : Fin 1) k) = wArr V c (ix2 (0 : Fin 1) k) := by
  obtain ⟨-, -, -, -, e4, e5, -⟩ := idx_facts t
  show V c main_arg9 (((cfg3.win 2).blk t).view.emb (ix2 (0 : Fin 1) k)) = V c main_arg9 (ix2 (0 : Fin 1) k)
  refine congrArg (V c main_arg9) (funext fun a => Fin.ext ?_)
  match a with
  | ⟨0, _⟩ => show win3_2.index t (0 : Fin 2) * 1 + 1 * 0 = 0; rw [e4]
  | ⟨1, _⟩ => show win3_2.index t (1 : Fin 2) * 64 + 1 * k.val = k.val; rw [e5]; omega

/-- The bias's block is the bias. -/
theorem bBlk_apply (c : Dev nD) (t : Fin cfg3.N) :
    bBlk V c t (ix2 (0 : Fin 1) (0 : Fin 1)) = bArr V c (ix2 (0 : Fin 1) (0 : Fin 1)) := by
  obtain ⟨-, -, -, -, -, -, e6, e7, -⟩ := idx_facts t
  show V c main_v83 (((cfg3.win 3).blk t).view.emb (ix2 (0 : Fin 1) (0 : Fin 1))) = V c main_v83 (ix2 (0 : Fin 1) (0 : Fin 1))
  refine congrArg (V c main_v83) (funext fun a => Fin.ext ?_)
  match a with
  | ⟨0, _⟩ => show win3_3.index t (0 : Fin 2) * 1 + 1 * 0 = 0; rw [e6]
  | ⟨1, _⟩ => show win3_3.index t (1 : Fin 2) * 1 + 1 * 0 = 0; rw [e7]

/-! ## The carried sums, by induction over the points -/

/-- What a point adds to the carried sums is its block's part. -/
theorem blockSum_eq (c : Dev nD) (t : Fin cfg3.N) (k : Fin 64) (g : Fin 512) :
    ∑ r : Fin 1000, rowsBlk V c t (ix2 r k) * hot (idsBlk V c t (ix2 r (0 : Fin 1))) g
      = blockSum (idsArr V c) (rowsArr V c) k g t.val := by
  have ht : t.val < 100 := Nat.lt_of_lt_of_eq t.isLt hN
  unfold blockSum
  rw [dif_pos ht]
  refine Finset.sum_congr rfl fun r _ => ?_
  rw [rowsBlk_apply V c t ht r k, idsBlk_apply V c t ht r]

/-- What a point adds to the carried counts is its block's part. -/
theorem blockCnt_eq (c : Dev nD) (t : Fin cfg3.N) (g : Fin 512) :
    ∑ r : Fin 1000, hot (idsBlk V c t (ix2 r (0 : Fin 1))) g = blockCnt (idsArr V c) g t.val := by
  have ht : t.val < 100 := Nat.lt_of_lt_of_eq t.isLt hN
  unfold blockCnt
  rw [dif_pos ht]
  refine Finset.sum_congr rfl fun r _ => ?_
  rw [idsBlk_apply V c t ht r]

/-- After point `n` the carried sums hold the parts of blocks 0 … n. -/
theorem accS_eq (c : Dev nD) (k : Fin 64) (g : Fin 512) : ∀ (n : ℕ) (hn : n < cfg3.N),
    ((Frame.acc3 (F := Ideal) V c n hn).1 : FVec Ideal S64x512 .f32) (ix2 k g)
      = ∑ t ∈ Finset.range (n + 1), blockSum (idsArr V c) (rowsArr V c) k g t
  | 0, hn => by
    rw [Frame.acc3_zero]
    refine (pay4_apply (idsBlk V c ⟨0, hn⟩) (rowsBlk V c ⟨0, hn⟩) (k3_pay1 (F := Ideal)) k g).trans ?_
    rw [pay1_apply, zero_add, Finset.sum_range_one]
    exact blockSum_eq V c ⟨0, hn⟩ k g
  | n + 1, hn => by
    rw [Frame.acc3_succ]
    refine (pay4_apply (idsBlk V c ⟨n + 1, hn⟩) (rowsBlk V c ⟨n + 1, hn⟩) (Frame.acc3 (F := Ideal) V c n (Nat.lt_of_succ_lt hn)).1 k g).trans ?_
    rw [accS_eq c k g n (Nat.lt_of_succ_lt hn), Finset.sum_range_succ _ (n + 1)]
    exact congrArg _ (blockSum_eq V c ⟨n + 1, hn⟩ k g)

/-- After point `n` the carried counts hold the parts of blocks 0 … n. -/
theorem accC_eq (c : Dev nD) (g : Fin 512) : ∀ (n : ℕ) (hn : n < cfg3.N),
    ((Frame.acc3 (F := Ideal) V c n hn).2 : FVec Ideal S1x512 .f32) (ix2 (0 : Fin 1) g)
      = ∑ t ∈ Finset.range (n + 1), blockCnt (idsArr V c) g t
  | 0, hn => by
    rw [Frame.acc3_zero]
    refine (pay5_apply (idsBlk V c ⟨0, hn⟩) (k3_pay2 (F := Ideal)) g).trans ?_
    rw [pay2_apply, zero_add, Finset.sum_range_one]
    exact blockCnt_eq V c ⟨0, hn⟩ g
  | n + 1, hn => by
    rw [Frame.acc3_succ]
    refine (pay5_apply (idsBlk V c ⟨n + 1, hn⟩) (Frame.acc3 (F := Ideal) V c n (Nat.lt_of_succ_lt hn)).2 g).trans ?_
    rw [accC_eq c g n (Nat.lt_of_succ_lt hn), Finset.sum_range_succ _ (n + 1)]
    exact congrArg _ (blockCnt_eq V c ⟨n + 1, hn⟩ g)

/-! ## What the last point stores, and the result array -/

/-- The region's result as ONE function of the four operand arrays. -/
abbrev result (c : Dev nD) : FVec Ideal S512x1 .f32 := poolSpec (idsArr V c) (rowsArr V c) (wArr V c) (bArr V c)

/-- The last point stores, for graph `g`, the pooled and projected value of `g`. -/
theorem out_val (c : Dev nD) (h99 : 99 < cfg3.N) (g : Fin 512) :
    (Frame.out3_4 (F := Ideal) V c ⟨99, h99⟩ : FVec Ideal S512x1 .f32) (ix2 g (0 : Fin 1))
      = poolAt (idsArr V c) (rowsArr V c) (wArr V c) (bArr V c) g := by
  unfold Frame.out3_4
  refine (pay6_apply (Frame.acc3 (F := Ideal) V c 99 h99).1 (Frame.acc3 (F := Ideal) V c 99 h99).2 (wBlk V c ⟨99, h99⟩) (bBlk V c ⟨99, h99⟩) g).trans ?_
  unfold poolAt
  rw [bBlk_apply V c ⟨99, h99⟩, (accC_eq V c g 99 h99).trans (sum_blockCnt (idsArr V c) g)]
  refine congrArg (· + bArr V c (ix2 (0 : Fin 1) (0 : Fin 1))) (Finset.sum_congr rfl fun k _ => ?_)
  rw [wBlk_apply V c ⟨99, h99⟩ k, (accS_eq V c k g 99 h99).trans (sum_blockSum (idsArr V c) (rowsArr V c) k g)]

/-- The one write-back, at the last point, writes the result: its block is the whole array. -/
theorem flushed_eq (c : Dev nD) (t : Fin cfg3.N) (hf : (cfg3.win 4).flush t = true) :
    (Frame.dat3 (F := Ideal) V c).flushed 4 t = ((cfg3.win 4).blk t).view.read (Elt Ideal) (result V c) := by
  have h99 : t.val = 99 := by
    have h1 := (flush3_4 t).mp hf
    have h2 : t.val < 100 := Nat.lt_of_lt_of_eq t.isLt hN
    omega
  obtain ⟨n, ht⟩ := t
  dsimp only at h99
  subst h99
  obtain ⟨-, -, -, -, -, -, -, -, e8, e9⟩ := idx_facts ⟨99, ht⟩
  show (cfg3.win 4).cut (grid3.coords ⟨99, ht⟩) ((Frame.dat3 (F := Ideal) V c).after 4 ⟨99, ht⟩) = _
  rw [Frame.after3_4]
  funext j
  have hj0 : (j 0).val < 512 := (j 0).isLt
  have hj1 : (j 1).val < 1 := (j 1).isLt
  have e1 : (cfg3.win 4).xinj (grid3.coords ⟨99, ht⟩) j = ix2 (⟨(j 0).val, hj0⟩ : Fin 512) (0 : Fin 1) := funext fun a => Fin.ext (by
    match a with
    | ⟨0, _⟩ => rfl
    | ⟨1, _⟩ => show (j 1).val = 0; omega)
  have e2 : ((cfg3.win 4).blk ⟨99, ht⟩).view.emb j = ix2 (⟨(j 0).val, hj0⟩ : Fin 512) (0 : Fin 1) := funext fun a => Fin.ext (by
    match a with
    | ⟨0, _⟩ => show win3_4.index ⟨99, ht⟩ (0 : Fin 2) * 512 + 1 * (j 0).val = (j 0).val; rw [e8]; omega
    | ⟨1, _⟩ => show win3_4.index ⟨99, ht⟩ (1 : Fin 2) * 1 + 1 * (j 1).val = 0; rw [e9]; omega)
  show Frame.out3_4 (F := Ideal) V c ⟨99, ht⟩ ((cfg3.win 4).xinj (grid3.coords ⟨99, ht⟩) j) = result V c (((cfg3.win 4).blk ⟨99, ht⟩).view.emb j)
  rw [e1, e2]
  exact out_val V c ht ⟨(j 0).val, hj0⟩

/-- Every index of the result is in the last point's block. -/
theorem cover (c : Dev nD) (i : S512x1.Idx) :
    ∃ t : Fin cfg3.N, (cfg3.win 4).flush t = true ∧ i ∈ ((cfg3.win 4).blk t).view.set := by
  have h99 : 99 < cfg3.N := by rw [hN]; decide
  obtain ⟨-, -, -, -, -, -, -, -, e8, e9⟩ := idx_facts ⟨99, h99⟩
  refine ⟨⟨99, h99⟩, (flush3_4 _).mpr rfl, ?_⟩
  show i ∈ ((View.whole main_v84).slice (win3_4.rect ⟨99, h99⟩)).set
  rw [View.set_slice_whole, Rect.mem_set_unit]
  intro a
  have h0 : (i 0).val < 512 := (i 0).isLt
  have h1 : (i 1).val < 1 := (i 1).isLt
  match a with
  | ⟨0, _⟩ =>
    show win3_4.index ⟨99, h99⟩ (0 : Fin 2) * 512 ≤ (i 0).val ∧ (i 0).val < win3_4.index ⟨99, h99⟩ (0 : Fin 2) * 512 + 512
    rw [e8]; omega
  | ⟨1, _⟩ =>
    show win3_4.index ⟨99, h99⟩ (1 : Fin 2) * 1 ≤ (i 1).val ∧ (i 1).val < win3_4.index ⟨99, h99⟩ (1 : Fin 2) * 1 + 1
    rw [e9]; omega

end Cert.KernelIdeal.Val.PoolK

namespace Cert.KernelIdeal.Val

open Cert.KernelIdeal Cert.KernelIdeal.Gen
open Idealize.ShloMosaic Idealize.ShloMosaic.TcCoe Idealize.SL.Sem
open Idealize.ShloMosaic.Pipeline (Dat)

/-- After region 3 its result array is the pooling specification of the four operand arrays as the region finds them:
    the graph ids, the rows, the layer's weights and its bias. -/
theorem arr3 (V : (c : Dev nD) → (b : Ref sig .tc) → Buf (Elt Ideal) ((c : Thread nD τ).loc b)) (c : Dev nD) :
    ((Frame.dat3 (F := Ideal) V c).arrAt 4 cfg3.N : FVec Ideal S512x1 .f32)
      = Cert.PoolSpec.poolSpec (V c main_v82 : Vec Ideal S100000x1 .i32) (V c main_v81 : FVec Ideal S100000x64 .f32)
          (V c main_arg9 : FVec Ideal S1x64 .f32) (V c main_v83 : FVec Ideal S1x1 .f32) :=
  (Frame.dat3 (F := Ideal) V c).arrAt_eq_of_cover 4 (PoolK.result V c) (PoolK.flushed_eq V c) (PoolK.cover c)

end Cert.KernelIdeal.Val

end
-- ==== Proof.LibScatterRows.lean ====
/-
  An accumulating scatter into a table, read at one entry, as a sum over the rows of the updates.

  At the ideal instance the scatter's entry `i` is the operand's entry plus the sum of the updates that land on `i`.
  When the updates are laid out one row per scatter index — `[N, D]` updates into a `[C, D]` table, row `r` landing on
  class row `c` exactly when a condition `hit r` holds, feature column kept — the updates landing on `(c, f)` are the
  entries `(r, f)` of the rows with `hit r`: the entry is the operand's plus the sum over ALL rows `r` of the update at
  `(r, f)` where `hit r` and zero elsewhere. Stated for any sizes; which rows hit is a hypothesis.
-/
import Idealize.ShloMosaic.PureOps.Ideal
import Idealize.ShloMosaic.PureOps.Contract
import Idealize.ShloMosaic.Lib.ValueIdx

namespace Cert.ClassStats.Scatter

open Idealize.ShloMosaic Idealize.ShloMosaic.ValueIdx

/-- A sum over the indices of a vector shape is the sum over its one coordinate. -/
theorem sum_idx1 {M : Type*} [AddCommMonoid M] {n : ℕ} (g : (⟨1, ![n]⟩ : Shape).Idx → M) :
    ∑ i, g i = ∑ a : Fin n, g (ix1 a) :=
  Fintype.sum_equiv ⟨fun j => j 0, ix1, fun j => (eq_ix1 j).symm, fun _ => rfl⟩ g (fun a => g (ix1 a))
    (fun j => congrArg g (eq_ix1 j))

/-- Rows of `[N, D]` updates scattered into a `[C, D]` table: entry `(c, f)`. -/
theorem scatter2_apply {N C D w : ℕ} (d : ScatterDims ⟨2, ![C, D]⟩ ⟨2, ![N, 1]⟩ ⟨2, ![N, D]⟩)
    (x : (⟨2, ![C, D]⟩ : Shape).Idx → EReal) (idx : IVec ⟨2, ![N, 1]⟩ w) (upd : (⟨2, ![N, D]⟩ : Shape).Idx → EReal)
    (c : Fin C) (f : Fin D) (hit : Fin N → Prop) [DecidablePred hit]
    (hchar : ∀ (r : Fin N) (b : Fin D), d.resultIdx? (ix2 r b) idx = some (ix2 c f) ↔ hit r ∧ b = f) :
    Host.scatterAdd (F := Ideal) (φ := .f32) d x idx upd (ix2 c f)
      = x (ix2 c f) + ∑ r : Fin N, if hit r then upd (ix2 r f) else 0 := by
  show x (ix2 c f) + ∑ j ∈ Finset.univ.filter (fun j => d.resultIdx? j idx = some (ix2 c f)), upd j = _
  congr 1
  rw [Finset.sum_filter, sum_idx2]
  refine Finset.sum_congr rfl fun r _ => ?_
  by_cases h : hit r
  · rw [if_pos h]
    have e : ∀ b : Fin D, (if d.resultIdx? (ix2 r b) idx = some (ix2 c f) then upd (ix2 r b) else 0)
        = if b = f then upd (ix2 r b) else 0 := fun b => by
      by_cases hb : b = f
      · rw [if_pos ((hchar r b).mpr ⟨h, hb⟩), if_pos hb]
      · rw [if_neg (fun hh => hb ((hchar r b).mp hh).2), if_neg hb]
    rw [Finset.sum_congr rfl fun b _ => e b, Finset.sum_ite_eq' Finset.univ f fun b => upd (ix2 r b), if_pos (Finset.mem_univ f)]
  · rw [if_neg h]
    exact Finset.sum_eq_zero fun b _ => if_neg fun hh => h ((hchar r b).mp hh).1

/-- A vector of `N` updates scattered into a vector of `C` entries: entry `c`. -/
theorem scatter1_apply {N C w : ℕ} (d : ScatterDims ⟨1, ![C]⟩ ⟨2, ![N, 1]⟩ ⟨1, ![N]⟩)
    (x : (⟨1, ![C]⟩ : Shape).Idx → EReal) (idx : IVec ⟨2, ![N, 1]⟩ w) (upd : (⟨1, ![N]⟩ : Shape).Idx → EReal)
    (c : Fin C) (hit : Fin N → Prop) [DecidablePred hit]
    (hchar : ∀ r : Fin N, d.resultIdx? (ix1 r) idx = some (ix1 c) ↔ hit r) :
    Host.scatterAdd (F := Ideal) (φ := .f32) d x idx upd (ix1 c)
      = x (ix1 c) + ∑ r : Fin N, if hit r then upd (ix1 r) else 0 := by
  show x (ix1 c) + ∑ j ∈ Finset.univ.filter (fun j => d.resultIdx? j idx = some (ix1 c)), upd j = _
  congr 1
  rw [Finset.sum_filter, sum_idx1]
  refine Finset.sum_congr rfl fun r _ => ?_
  by_cases h : hit r
  · rw [if_pos h, if_pos ((hchar r).mpr h)]
  · rw [if_neg h, if_neg fun hh => h ((hchar r).mp hh)]

end Cert.ClassStats.Scatter
-- ==== Proof.Val.PoolR.lean ====
/-
  The reference's last operations at the extended reals: two accumulating scatters over the graph ids (the rows, and
  ones), the quotient by the counts (at least one), the product with the transposed weights and the bias — as the pooling
  specification. A scatter's entry is the sum of the updates whose id lands on it, ids outside the range dropped: the
  one-hot sum. The product with the weights meets the specification's by commutativity.
-/
import proofs.«409805_j12120397709999_1_alg».proof.Proof.Gen.ReferenceIdeal.Read
import proofs.«409805_j12120397709999_1_alg».proof.Proof.Val.PoolSpec
import proofs.«409805_j12120397709999_1_alg».proof.Proof.LibScatterRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.PoolVal

open Cert.ReferenceIdeal Cert.ReferenceIdeal.Gen Cert.ReferenceIdeal.Read
open Idealize.ShloMosaic Idealize.ShloMosaic.TcCoe Idealize.SL.Sem Idealize.ShloMosaic.ValueIdx
open Cert.PoolSpec

/-- The row scatter's dimension numbers: update row `n` goes to operand row `ids n`, the column kept. -/
abbrev dR := scatter_S512x64_S100000x1_S100000x64_1_0_0_1
/-- The count scatter's dimension numbers: update `n` goes to operand entry `ids n`. -/
abbrev dC := scatter_S512_S100000x1_S100000_n_0_0_1

/-- An update lands on operand index `i` exactly when start plus window coordinate is `i`'s coordinate on every axis. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : ℤ) := by
  unfold ScatterDims.resultIdx?
  constructor
  · intro h a
    by_cases hh : ∀ a, 0 ≤ d.start j idx a + d.window j a ∧ d.start j idx a + d.window j a < s.size a
    · rw [dif_pos hh] at h
      have e : (d.start j idx a + d.window j a).toNat = (i a).val :=
        congrArg (fun f : s.Idx => (f a).val) (Option.some.inj h)
      have := (hh a).1
      omega
    · rw [dif_neg hh] at h
      cases h
  · intro h
    have hh : ∀ a, 0 ≤ d.start j idx a + d.window j a ∧ d.start j idx a + d.window j a < s.size a := fun a => by
      rw [h a]
      exact ⟨Int.natCast_nonneg _, by exact_mod_cast (i a).isLt⟩
    rw [dif_pos hh]
    refine congrArg some (funext fun a => Fin.ext ?_)
    show (d.start j idx a + d.window j a).toNat = (i a).val
    rw [h a]
    exact Int.toNat_natCast _

/-- A 32-bit word read signed is the small natural `g` exactly when it is `g`'s word. -/
theorem toInt_eq_iff (w : BitVec 32) (g : Fin 512) : w.toInt = (g.val : ℤ) ↔ w = BitVec.ofNat 32 g.val := by
  have hg := g.isLt
  have hw := w.isLt
  constructor
  · intro h
    apply BitVec.eq_of_toNat_eq
    rw [BitVec.toNat_ofNat]
    rw [BitVec.toInt_eq_toNat_cond] at h
    split at h <;> omega
  · intro h
    rw [h, BitVec.toInt_eq_toNat_cond, BitVec.toNat_ofNat]
    split <;> omega

/-- The row scatter reads update `(r, b)`'s start index at row `r` of the id column. -/
theorem dR_siIdx (r : Fin 100000) (b : Fin 64) (c : Fin dR.scatterDimsToOperandDims.length) :
    dR.siIdx (ix2 r b) c = ix2 r (0 : Fin 1) := by
  funext a
  match a with
  | ⟨0, _⟩ => rfl
  | ⟨1, _⟩ => exact Fin.ext (Nat.lt_one_iff.mp c.isLt)

/-- On the row axis the row scatter's start is row `r`'s id, read signed. -/
theorem dR_start0 (r : Fin 100000) (b : Fin 64) (idx : IVec S100000x1 32) :
    dR.start (ix2 r b) idx 0 = (idx (ix2 r (0 : Fin 1))).toInt := by
  unfold ScatterDims.start
  rw [dif_pos (show (0 : Fin S512x64.rank) ∈ dR.scatterDimsToOperandDims by decide), dR_siIdx]

/-- The count scatter reads update `r`'s start index at row `r` of the id column. -/
theorem dC_siIdx (r : Fin 100000) (c : Fin dC.scatterDimsToOperandDims.length) :
    dC.siIdx (ix1 r) c = ix2 r (0 : Fin 1) := by
  funext a
  match a with
  | ⟨0, _⟩ => rfl
  | ⟨1, _⟩ => exact Fin.ext (Nat.lt_one_iff.mp c.isLt)

/-- The count scatter's start is row `r`'s id, read signed. -/
theorem dC_start0 (r : Fin 100000) (idx : IVec S100000x1 32) :
    dC.start (ix1 r) idx 0 = (idx (ix2 r (0 : Fin 1))).toInt := by
  unfold ScatterDims.start
  rw [dif_pos (show (0 : Fin S512.rank) ∈ dC.scatterDimsToOperandDims by decide), dC_siIdx]

/-- Update `(r, b)` of the row scatter lands on `(g, k)` exactly when row `r`'s id is `g`'s word and `b = k`. -/
theorem dR_hit (idx : IVec S100000x1 32) (g : Fin 512) (k : Fin 64) (r : Fin 100000) (b : Fin 64) :
    dR.resultIdx? (ix2 r b) idx = some (ix2 g k) ↔ idx (ix2 r (0 : Fin 1)) = BitVec.ofNat 32 g.val ∧ b = k := by
  rw [resultIdx?_eq_some_iff, ← toInt_eq_iff]
  constructor
  · intro h
    have h0 : dR.start (ix2 r b) idx 0 + ((0 : ℕ) : ℤ) = ((g.val : ℕ) : ℤ) := h 0
    have h1 := h 1
    rw [dR_start0] at h0
    refine ⟨by simpa using h0, Fin.ext ?_⟩
    have : (0 : ℤ) + ((b.val : ℕ) : ℤ) = ((k.val : ℕ) : ℤ) := h1
    omega
  · rintro ⟨h0, rfl⟩ a
    match a with
    | ⟨0, _⟩ =>
      show dR.start (ix2 r b) idx 0 + ((0 : ℕ) : ℤ) = ((g.val : ℕ) : ℤ)
      rw [dR_start0, h0]; simp
    | ⟨1, _⟩ =>
      show (0 : ℤ) + ((b.val : ℕ) : ℤ) = ((b.val : ℕ) : ℤ)
      simp

/-- Update `r` of the count scatter lands on `g` exactly when row `r`'s id is `g`'s word. -/
theorem dC_hit (idx : IVec S100000x1 32) (g : Fin 512) (r : Fin 100000) :
    dC.resultIdx? (ix1 r) idx = some (ix1 g) ↔ idx (ix2 r (0 : Fin 1)) = BitVec.ofNat 32 g.val := by
  rw [resultIdx?_eq_some_iff, ← toInt_eq_iff]
  constructor
  · intro h
    have h0 : dC.start (ix1 r) idx 0 + ((0 : ℕ) : ℤ) = ((g.val : ℕ) : ℤ) := h 0
    rw [dC_start0] at h0
    simpa using h0
  · intro h0 a
    match a with
    | ⟨0, _⟩ =>
      show dC.start (ix1 r) idx 0 + ((0 : ℕ) : ℤ) = ((g.val : ℕ) : ℤ)
      rw [dC_start0, h0]; simp

/-- The f32 pattern of one denotes the extended real one. -/
theorem ofBits_one_f32 : Ideal.ofBits .f32 0x3F800000#32 = 1 := by
  have e : ((8388608 : ℝ) * ((2 : ℝ) ^ 23)⁻¹ : ℝ) = 1 := by norm_num
  simp [Ideal.ofBits, Ideal.ieee]
  exact_mod_cast e

/-- The ids laid out as a column, read at row `n`. -/
theorem v83_col (x2 : Vec Ideal S100000 .i32) (n : Fin 100000) :
    val_main_v83 (F := Ideal) x2 (ix2 n (0 : Fin 1)) = x2 (ix1 n) := by
  rw [val_main_v83_apply]
  exact congrArg x2 (funext fun a => match a with | ⟨0, _⟩ => rfl)

/-- The same for the count scatter's copy of the column. -/
theorem v87_col (x2 : Vec Ideal S100000 .i32) (n : Fin 100000) :
    val_main_v87 (F := Ideal) x2 (ix2 n (0 : Fin 1)) = x2 (ix1 n) := by
  rw [val_main_v87_apply]
  exact congrArg x2 (funext fun a => match a with | ⟨0, _⟩ => rfl)

/-- The row scatter into zeros at `(g, k)`: column `k` summed over the rows whose id is `g`. -/
theorem rows_entry (x2 : Vec Ideal S100000 .i32) (h : FVec Ideal S100000x64 .f32) (g : Fin 512) (k : Fin 64) :
    Host.scatterAdd (F := Ideal) dR (val_main_v82 (F := Ideal)) (val_main_v83 (F := Ideal) x2) h (ix2 g k)
      = ∑ n : Fin 100000, h (ix2 n k) * hot (x2 (ix1 n)) g := by
  refine (Cert.ClassStats.Scatter.scatter2_apply dR _ _ h g k
    (fun r => val_main_v83 (F := Ideal) x2 (ix2 r (0 : Fin 1)) = BitVec.ofNat 32 g.val) (fun r b => dR_hit _ g k r b)).trans ?_
  rw [val_main_v82_apply, val_main_cst_14_apply]
  show Ideal.ofBits .f32 0x00000000#32 + _ = _
  rw [Ideal.ofBits_zero_f32, zero_add]
  refine Finset.sum_congr rfl fun n _ => ?_
  unfold hot
  by_cases hn : x2 (ix1 n) = BitVec.ofNat 32 g.val
  · rw [if_pos ((v83_col x2 n).trans hn), if_pos hn, mul_one]
  · rw [if_neg (fun e => hn ((v83_col x2 n).symm.trans e)), if_neg hn, mul_zero]

/-- The scatter of ones into zeros at `g`: the number of rows whose id is `g`. -/
theorem cnt_entry (x2 : Vec Ideal S100000 .i32) (g : Fin 512) :
    val_main_v88 (F := Ideal) x2 (ix1 g) = ∑ n : Fin 100000, hot (x2 (ix1 n)) g := by
  unfold val_main_v88
  refine (Cert.ClassStats.Scatter.scatter1_apply dC _ _ _ g
    (fun r => val_main_v87 (F := Ideal) x2 (ix2 r (0 : Fin 1)) = BitVec.ofNat 32 g.val) (fun r => dC_hit _ g r)).trans ?_
  rw [val_main_v86_apply, val_main_cst_16_apply]
  show Ideal.ofBits .f32 0x00000000#32 + _ = _
  rw [Ideal.ofBits_zero_f32, zero_add]
  refine Finset.sum_congr rfl fun n _ => ?_
  unfold hot
  by_cases hn : x2 (ix1 n) = BitVec.ofNat 32 g.val
  · rw [if_pos ((v87_col x2 n).trans hn), if_pos hn, val_main_v85_apply, val_main_cst_15_apply]
    exact ofBits_one_f32
  · rw [if_neg (fun e => hn ((v87_col x2 n).symm.trans e)), if_neg hn]

/-- The divisor at `(g, k)`: the count of graph `g`, at least one, the same along the columns. -/
theorem den_entry (x2 : Vec Ideal S100000 .i32) (g : Fin 512) (k : Fin 64) :
    val_main_v92 (F := Ideal) x2 (ix2 g k) = max (∑ n : Fin 100000, hot (x2 (ix1 n)) g) 1 := by
  rw [val_main_v92_apply, val_main_v91_apply, val_main_v90_apply]
  have e : idx_main_v91 (idx_main_v92 (ix2 g k)) = ix1 g := funext fun a => match a with | ⟨0, _⟩ => rfl
  rw [e, cnt_entry, val_main_v89_apply, val_main_cst_17_apply]
  show max _ (Ideal.ofBits .f32 0x3F800000#32) = _
  rw [ofBits_one_f32]

/-- The product of a 512 x 64 matrix with a 64 x 1 column at the extended reals, read at an entry: the sum over the 64
    contracted coordinates. -/
theorem dot_apply (l : FVec Ideal S512x64 .f32) (r : FVec Ideal S64x1 .f32) (i : S512x1.Idx) :
    Host.dotGeneral (F := Ideal) (φ₁ := .f32) (φ₂ := .f32) dot_S512x64_S64x1_S512x1_1_0_0_1_n_n none l r i
      = ∑ k : Fin 64, l (lidx_main_v95 i k) * r (ridx_main_v95 i k) := by
  simp only [Host.dotGeneral]
  rw [Ideal.dotGeneral_apply, ← Equiv.sum_comp (ValueIdx.contrEquiv1 dot_S512x64_S64x1_S512x1_1_0_0_1_n_n 64 rfl rfl).symm]
  refine Finset.sum_congr rfl fun k _ => ?_
  have hk := ValueIdx.contrEquiv1_symm_val dot_S512x64_S64x1_S512x1_1_0_0_1_n_n 64 rfl rfl k
  have el : dot_S512x64_S64x1_S512x1_1_0_0_1_n_n.lhsIdx i ((ValueIdx.contrEquiv1 dot_S512x64_S64x1_S512x1_1_0_0_1_n_n 64 rfl rfl).symm k) = lidx_main_v95 i k := funext fun a => Fin.ext (by
    match a with
    | ⟨0, _⟩ => exact lhs_main_v95_0 _ _
    | ⟨1, _⟩ => exact (lhs_main_v95_1 _ _).trans hk)
  have er : dot_S512x64_S64x1_S512x1_1_0_0_1_n_n.rhsIdx i ((ValueIdx.contrEquiv1 dot_S512x64_S64x1_S512x1_1_0_0_1_n_n 64 rfl rfl).symm k) = ridx_main_v95 i k := funext fun a => Fin.ext (by
    match a with
    | ⟨0, _⟩ => exact (rhs_main_v95_0 _ _).trans hk
    | ⟨1, _⟩ => exact rhs_main_v95_1 _ _)
  rw [el, er]

/-- The reference's tail over ANY rows `h` (in the program: the third layer's output): the pooling specification, for
    ids and bias that are the reference's `x2`, `x10` laid out as a column and as a 1 x 1 matrix. -/
theorem pool_ref (x2 : Vec Ideal S100000 .i32) (h : FVec Ideal S100000x64 .f32) (x9 : FVec Ideal S1x64 .f32) (x10 : FVec Ideal S1 .f32)
    (ids : Vec Ideal S100000x1 .i32) (hids : ∀ n : Fin 100000, ids (ix2 n (0 : Fin 1)) = x2 (ix1 n))
    (lb : FVec Ideal S1x1 .f32) (hlb : lb (ix2 (0 : Fin 1) (0 : Fin 1)) = x10 (ix1 (0 : Fin 1))) :
    addf (Host.dotGeneral (F := Ideal) (φ₁ := .f32) (φ₂ := .f32) dot_S512x64_S64x1_S512x1_1_0_0_1_n_n none
        (Host.divf (Host.scatterAdd scatter_S512x64_S100000x1_S100000x64_1_0_0_1 (val_main_v82 (F := Ideal)) (val_main_v83 (F := Ideal) x2) h)
          (val_main_v92 (F := Ideal) x2))
        (val_main_v94 (F := Ideal) x9)) (val_main_v97 (F := Ideal) x10)
      = Cert.PoolSpec.poolSpec ids h x9 lb := by
  funext i
  rw [addf_apply, dot_apply]
  show _ = poolAt ids h x9 lb ⟨(i 0).val, (i 0).isLt⟩
  unfold poolAt
  have hs : ∀ k : Fin 64, segSum ids h k ⟨(i 0).val, (i 0).isLt⟩ = ∑ n : Fin 100000, h (ix2 n k) * hot (x2 (ix1 n)) ⟨(i 0).val, (i 0).isLt⟩ :=
    fun k => Finset.sum_congr rfl fun n _ => by rw [hids]
  have hc : segCnt ids ⟨(i 0).val, (i 0).isLt⟩ = ∑ n : Fin 100000, hot (x2 (ix1 n)) ⟨(i 0).val, (i 0).isLt⟩ :=
    Finset.sum_congr rfl fun n _ => by rw [hids]
  refine congrArg₂ (· + ·) (Finset.sum_congr rfl fun k _ => ?_) ?_
  · have el : lidx_main_v95 i k = ix2 (⟨(i 0).val, (i 0).isLt⟩ : Fin 512) k := funext fun a => match a with
      | ⟨0, _⟩ => rfl
      | ⟨1, _⟩ => rfl
    have er : idx_main_v94 (ridx_main_v95 i k) = ix2 (0 : Fin 1) k := funext fun a => match a with
      | ⟨0, _⟩ => Fin.ext (Nat.lt_one_iff.mp (i 1).isLt)
      | ⟨1, _⟩ => rfl
    have hq : Host.divf (F := Ideal) (φ := .f32)
          (Host.scatterAdd scatter_S512x64_S100000x1_S100000x64_1_0_0_1 (val_main_v82 (F := Ideal)) (val_main_v83 (F := Ideal) x2) h)
          (val_main_v92 (F := Ideal) x2) (ix2 (⟨(i 0).val, (i 0).isLt⟩ : Fin 512) k)
        = Ideal.div (∑ n : Fin 100000, h (ix2 n k) * hot (x2 (ix1 n)) ⟨(i 0).val, (i 0).isLt⟩)
            (max (∑ n : Fin 100000, hot (x2 (ix1 n)) ⟨(i 0).val, (i 0).isLt⟩) 1) := by
      simp only [Host.divf]
      rw [rows_entry, den_entry]
      rfl
    rw [el, hq, val_main_v94_apply, er, hs k, hc]
    exact mul_comm _ _
  · rw [val_main_v97_apply, val_main_v96_apply, hlb]
    exact congrArg x10 (funext fun a => match a with | ⟨0, _⟩ => rfl)

/-- The reference's result is the pooling specification of the third layer's output. -/
theorem pool_bridge (x0 : FVec Ideal S100000x128 .f32) (x1 : Vec Ideal S2x1600000 .i32) (x2 : Vec Ideal S100000 .i32) (x3 : FVec Ideal S128x64 .f32)
    (x4 : FVec Ideal S64 .f32) (x5 : FVec Ideal S64x64 .f32) (x6 : FVec Ideal S64 .f32) (x7 : FVec Ideal S64x64 .f32) (x8 : FVec Ideal S64 .f32)
    (x9 : FVec Ideal S1x64 .f32) (x10 : FVec Ideal S1 .f32)
    (ids : Vec Ideal S100000x1 .i32) (hids : ∀ n : Fin 100000, ids (ix2 n (0 : Fin 1)) = x2 (ix1 n))
    (lb : FVec Ideal S1x1 .f32) (hlb : lb (ix2 (0 : Fin 1) (0 : Fin 1)) = x10 (ix1 (0 : Fin 1))) :
    val_main_v98 (F := Ideal) x0 x1 x2 x3 x4 x5 x6 x7 x8 x9 x10
      = Cert.PoolSpec.poolSpec ids (val_main_v81 (F := Ideal) x0 x1 x3 x4 x5 x6 x7 x8) x9 lb := by
  unfold val_main_v98 val_main_v95 val_main_v93 val_main_v84
  exact pool_ref x2 (val_main_v81 (F := Ideal) x0 x1 x3 x4 x5 x6 x7 x8) x9 x10 ids hids lb hlb

end Cert.ReferenceIdeal.PoolVal

end
-- ==== Proof.Val.Final.lean ====
/-
  The kernel program's result at the extended reals is the reference's: at the program's end the result array holds
  what region 3's one write-back leaves, which is the pooling specification of the buffers region 3 is entered with;
  those are the reference's third-layer output, the ids as a column, the weights and the bias as a 1 x 1 matrix; and
  the reference's own last operations compute the same specification of the same values.
-/
import proofs.«409805_j12120397709999_1_alg».proof.Proof.KI.Fold
import proofs.«409805_j12120397709999_1_alg».proof.Proof.Val.Chain
import proofs.«409805_j12120397709999_1_alg».proof.Proof.Val.PoolK
import proofs.«409805_j12120397709999_1_alg».proof.Proof.Val.PoolR

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The result buffer at the program's end is the reference's result term of the same arguments. -/
theorem result_eq : (Frame.W10 (F := Ideal) m c main_v84 : FVec Ideal S512x1 .f32)
    = Cert.ReferenceIdeal.Read.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (Frame.W10_arr (F := Ideal) m c 4).trans ((arr3 (Frame.V9 (F := Ideal) m) c).trans ?_)
  have h81 := s_v81 m c
  have h9 := s_arg9 m c
  refine Eq.trans ?_ (Cert.ReferenceIdeal.PoolVal.pool_bridge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    (Frame.W9 (F := Ideal) m c main_v82) (s_v82 m c) (Frame.W9 (F := Ideal) m c main_v83) (s_v83 m c)).symm
  exact congrArg₂ (fun (h : FVec Ideal S100000x64 .f32) (w : FVec Ideal S1x64 .f32) =>
    Cert.PoolSpec.poolSpec (Frame.W9 (F := Ideal) m c main_v82) h w (Frame.W9 (F := Ideal) m c main_v83)) h81 h9

end Cert.KernelIdeal.Val

end
-- ==== Proof.lean ====
/-
  The certificate of a three-layer graph convolution network with mean pooling and a linear head.

  The kernel program computes each layer's dense projection x @ W in a row-tiled matrix-product kernel and leaves the
  edge gather, the scaling by the symmetric normalisation, the accumulating scatter, the bias and the rectifier to the
  same host operations the reference uses; its last kernel pools the third layer's rows per graph id by one-hot matrix
  products accumulated over a grid of row blocks, divides by the counts (at least one), applies the linear layer and
  adds the bias. The reference does the pooling by two accumulating scatters over the graph ids.

  Over the extended reals the two are one function. A change of float format is the identity and a matrix product
  into a zero accumulator is the plain sum of products, so each matrix-product region's result array is the host
  `dot_general` of the same operands, block by block; the host operations around the regions are the reference's own,
  applied to equal values. A one-hot entry is one or zero, and x * 1 = x, x * 0 = 0 on every extended real, so the
  one-hot products summed over all row blocks are the sums over the rows of each graph — what an accumulating scatter
  leaves, ids outside 0 … 511 dropped by both; the linear layer's products meet the reference's by commutativity.
  No law used needs finiteness, so the precondition is never opened.

  The three frames: the kernel program at both instances runs as ten items in a row — stretches of host operations
  and four kernel regions, each region's body run once per case of its control — and leaves every argument as
  launched; the reference is a straight line of host operations. The idealization rewrote nothing, so
  `preserves` is trivial.
-/
import proofs.«409805_j12120397709999_1_alg».proof.Defs
import proofs.«409805_j12120397709999_1_alg».proof.Proof.Gen.Kernel
import proofs.«409805_j12120397709999_1_alg».proof.Proof.Gen.KernelIdeal
import proofs.«409805_j12120397709999_1_alg».proof.Proof.Gen.ReferenceIdeal
import proofs.«409805_j12120397709999_1_alg».proof.Proof.Gen.Pre_finite_inputs
import proofs.«409805_j12120397709999_1_alg».proof.Proof.Gen.ReferenceIdeal.Run
import proofs.«409805_j12120397709999_1_alg».proof.Proof.Gen.ReferenceIdeal.Read
import proofs.«409805_j12120397709999_1_alg».proof.Proof.K.Run
import proofs.«409805_j12120397709999_1_alg».proof.Proof.KI.Run
import proofs.«409805_j12120397709999_1_alg».proof.Proof.Val.Final

set_option maxRecDepth 16384

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Frame.frame (F := Bits) m ρ

/-- So does its idealization. -/
theorem frame_ki : Cert.frame_KernelIdeal := fun m ρ _ => Cert.KernelIdeal.Frame.frame (F := Ideal) m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs run and end with equal results: the kernel program's final
    result buffer is the reference's result term of the same arguments. -/
theorem algebraic : Cert.algebraic_KernelIdeal_ReferenceIdeal := by
  intro m ρ m' ρ' _ hagree
  refine ⟨fun c => Cert.KernelIdeal.Frame.W10 (F := Ideal) m c Cert.KernelIdeal.main_v84, ?_, ?_⟩
  · exact (θ_run Cert.KernelIdeal.defs _ _).mono (fun _ h c =>
      ⟨h c _ (Cert.KernelIdeal.Frame.mem_uc Cert.KernelIdeal.main_v84 (by decide)),
       (h c _ (Cert.KernelIdeal.Frame.mem_uc Cert.KernelIdeal.main_arg0 (by decide))).trans (Cert.KernelIdeal.Frame.W10_main_arg0 m c),
       (h c _ (Cert.KernelIdeal.Frame.mem_uc Cert.KernelIdeal.main_arg1 (by decide))).trans (Cert.KernelIdeal.Frame.W10_main_arg1 m c),
       (h c _ (Cert.KernelIdeal.Frame.mem_uc Cert.KernelIdeal.main_arg2 (by decide))).trans (Cert.KernelIdeal.Frame.W10_main_arg2 m c),
       (h c _ (Cert.KernelIdeal.Frame.mem_uc Cert.KernelIdeal.main_arg3 (by decide))).trans (Cert.KernelIdeal.Frame.W10_main_arg3 m c),
       (h c _ (Cert.KernelIdeal.Frame.mem_uc Cert.KernelIdeal.main_arg4 (by decide))).trans (Cert.KernelIdeal.Frame.W10_main_arg4 m c),
       (h c _ (Cert.KernelIdeal.Frame.mem_uc Cert.KernelIdeal.main_arg5 (by decide))).trans (Cert.KernelIdeal.Frame.W10_main_arg5 m c),
       (h c _ (Cert.KernelIdeal.Frame.mem_uc Cert.KernelIdeal.main_arg6 (by decide))).trans (Cert.KernelIdeal.Frame.W10_main_arg6 m c),
       (h c _ (Cert.KernelIdeal.Frame.mem_uc Cert.KernelIdeal.main_arg7 (by decide))).trans (Cert.KernelIdeal.Frame.W10_main_arg7 m c),
       (h c _ (Cert.KernelIdeal.Frame.mem_uc Cert.KernelIdeal.main_arg8 (by decide))).trans (Cert.KernelIdeal.Frame.W10_main_arg8 m c),
       (h c _ (Cert.KernelIdeal.Frame.mem_uc Cert.KernelIdeal.main_arg9 (by decide))).trans (Cert.KernelIdeal.Frame.W10_main_arg9 m c),
       (h c _ (Cert.KernelIdeal.Frame.mem_uc Cert.KernelIdeal.main_arg10 (by decide))).trans (Cert.KernelIdeal.Frame.W10_main_arg10 m c)⟩)
      (Cert.KernelIdeal.Frame.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v98_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.KernelIdeal.Val.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
